-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S15x8 : Shape := ⟨2, ![15, 8]⟩
abbrev S16384x8 : Shape := ⟨2, ![16384, 8]⟩
abbrev S4000000 : Shape := ⟨1, ![4000000]⟩
abbrev S1 : Shape := ⟨1, ![1]⟩
abbrev S_ : Shape := ⟨0, ![]⟩

class Facts : Prop where
  bcast_S_S15x8 : S_.BroadcastsInDim S15x8 (![] : Fin 0 → Fin S15x8.rank)
  reducesTo_S15x8_S_d0_1 : S15x8.ReducesTo [0, 1] S_
  h_S_ : 0 < S_.numel
  bcast_S_S16384x8 : S_.BroadcastsInDim S16384x8 (![] : Fin 0 → Fin S16384x8.rank)
  reducesTo_S16384x8_S_d0_1 : S16384x8.ReducesTo [0, 1] S_
  bcast_S_S4000000 : S_.BroadcastsInDim S4000000 (![] : Fin 0 → Fin S4000000.rank)
  reducesTo_S4000000_S_d0 : S4000000.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg5 : IVec S4000000 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 0#32
  let main_v19 : IVec S4000000 32 := broadcastInDim S4000000 ![] bcast_S_S4000000 main_c_6
  let main_v20 : IVec S4000000 1 := cmpi .sge main_arg5 main_v19
  let main_c_7 : IVec S_ 1 := constantI S_ 1 1#1
  let main_v21 : IVec S_ 1 := (fun x v => Host.reduce IntOp.andi x v reducesTo_S4000000_S_d0 h_S_) main_v20 main_c_7
  let main_v22 : IVec S_ 1 := andi main_v18 main_v21
  main_v22

def fn {F : FTy → Type} [FloatOps F] (main_arg0 : FVec F S15x8 .f32) (main_arg1 : FVec F S16384x8 .f32) (main_arg2 : FVec F S4000000 .f32) (main_arg3 : FVec F S1 .f32) (main_arg4 : IVec S4000000 32) (main_arg5 : IVec S4000000 32) : IVec S_ 1 :=
  let main_v0 : FVec F S15x8 .f32 := Host.absf main_arg0
  let main_cst : FVec F S_ .f32 := constant S_ .f32 0x7F800000#32
  let main_v1 : FVec F S15x8 .f32 := broadcastInDim S15x8 ![] bcast_S_S15x8 main_cst
  let main_v2 : IVec S15x8 1 := cmpf .olt main_v0 main_v1
  let main_c : IVec S_ 1 := constantI S_ 1 1#1
  let main_v3 : IVec S_ 1 := (fun x v => Host.reduce IntOp.andi x v reducesTo_S15x8_S_d0_1 h_S_) main_v2 main_c
  let main_v4 : FVec F S16384x8 .f32 := Host.absf main_arg1
  let main_cst_0 : FVec F S_ .f32 := constant S_ .f32 0x7F800000#32
  let main_v5 : FVec F S16384x8 .f32 := broadcastInDim S16384x8 ![] bcast_S_S16384x8 main_cst_0
  let main_v6 : IVec S16384x8 1 := cmpf .olt main_v4 main_v5
  let main_c_1 : IVec S_ 1 := constantI S_ 1 1#1
  let main_v7 : IVec S_ 1 := (fun x v => Host.reduce IntOp.andi x v reducesTo_S16384x8_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_v13 main_v16
-- ==== Kernel.lean ====
abbrev S15x8 : Shape := ⟨2, ![15, 8]⟩
abbrev S16384x8 : Shape := ⟨2, ![16384, 8]⟩
abbrev S4000000 : Shape := ⟨1, ![4000000]⟩
abbrev S1 : Shape := ⟨1, ![1]⟩
abbrev S105 : Shape := ⟨1, ![105]⟩
abbrev S_ : Shape := ⟨0, ![]⟩
abbrev S105x1 : Shape := ⟨2, ![105, 1]⟩
abbrev S105x8 : Shape := ⟨2, ![105, 8]⟩
abbrev S8192x2x8 : Shape := ⟨3, ![8192, 2, 8]⟩
abbrev S8192x1x8 : Shape := ⟨3, ![8192, 1, 8]⟩
abbrev S8192x8 : Shape := ⟨2, ![8192, 8]⟩
abbrev S8192 : Shape := ⟨1, ![8192]⟩
abbrev S8297 : Shape := ⟨1, ![8297]⟩
abbrev S4000000x1 : Shape := ⟨2, ![4000000, 1]⟩
abbrev S4014080 : Shape := ⟨1, ![4014080]⟩
abbrev S2x136x128 : Shape := ⟨3, ![2, 136, 128]⟩
abbrev S1x136x128 : Shape := ⟨3, ![1, 136, 128]⟩
abbrev S136x128 : Shape := ⟨2, ![136, 128]⟩
abbrev S136x1 : Shape := ⟨2, ![136, 1]⟩
abbrev S1x128 : Shape := ⟨2, ![1, 128]⟩
abbrev S512 : Shape := ⟨1, ![512]⟩
abbrev S1x512 : Shape := ⟨2, ![1, 512]⟩
abbrev S136x512 : Shape := ⟨2, ![136, 512]⟩
abbrev S512x1 : Shape := ⟨2, ![512, 1]⟩
abbrev S512x128 : Shape := ⟨2, ![512, 128]⟩
abbrev S17408 : Shape := ⟨1, ![17408]⟩
abbrev S16399 : Shape := ⟨1, ![16399]⟩
abbrev S8297x1 : Shape := ⟨2, ![8297, 1]⟩

abbrev nBuf : Space → Nat
  | .hbm => 100
  | .vmem => 6
  | .smem => 0
  | _ => 0

abbrev bufTy : (tb : Table) → Fin (tcTables nBuf tb) → BufTy
  | .hbm, ⟨0, _⟩ => ⟨S15x8, .f32⟩
  | .hbm, ⟨1, _⟩ => ⟨S16384x8, .f32⟩
  | .hbm, ⟨2, _⟩ => ⟨S4000000, .f32⟩
  | .hbm, ⟨3, _⟩ => ⟨S1, .f32⟩
  | .hbm, ⟨4, _⟩ => ⟨S4000000, .i32⟩
  | .hbm, ⟨5, _⟩ => ⟨S4000000, .i32⟩
  | .hbm, ⟨6, _⟩ => ⟨S105, .i32⟩
  | .hbm, ⟨7, _⟩ => ⟨S105, .i1⟩
  | .hbm, ⟨8, _⟩ => ⟨S105, .i32⟩
  | .hbm, ⟨9, _⟩ => ⟨S105, .i1⟩
  | .hbm, ⟨10, _⟩ => ⟨S105, .i32⟩
  | .hbm, ⟨11, _⟩ => ⟨S105, .i32⟩
  | .hbm, ⟨12, _⟩ => ⟨S_, .i32⟩
  | .hbm, ⟨13, _⟩ => ⟨S105, .i32⟩
  | .hbm, ⟨14, _⟩ => ⟨S105, .i32⟩
  | .hbm, ⟨15, _⟩ => ⟨S105, .i32⟩
  | .hbm, ⟨16, _⟩ => ⟨S105x1, .i32⟩
  | .hbm, ⟨17, _⟩ => ⟨S105x8, .f32⟩
  | .hbm, ⟨18, _⟩ => ⟨S_, .i32⟩
  | .hbm, ⟨19, _⟩ => ⟨S105, .i32⟩
  | .hbm, ⟨20, _⟩ => ⟨S105, .i32⟩
  | .hbm, ⟨21, _⟩ => ⟨S105, .i32⟩
  | .hbm, ⟨22, _⟩ => ⟨S105x1, .i32⟩
  | .hbm, ⟨23, _⟩ => ⟨S105x8, .f32⟩
  | .hbm, ⟨24, _⟩ => ⟨S105x8, .f32⟩
  | .hbm, ⟨25, _⟩ => ⟨S105x8, .f32⟩
  | .hbm, ⟨26, _⟩ => ⟨S_, .f32⟩
  | .hbm, ⟨27, _⟩ => ⟨S105, .f32⟩
  | .hbm, ⟨28, _⟩ => ⟨S105, .f32⟩
  | .hbm, ⟨29, _⟩ => ⟨S105, .f32⟩
  | .hbm, ⟨30, _⟩ => ⟨S105, .f32⟩
  | .hbm, ⟨31, _⟩ => ⟨S8192x2x8, .f32⟩
  | .hbm, ⟨32, _⟩ => ⟨S8192x1x8, .f32⟩
  | .hbm, ⟨33, _⟩ => ⟨S8192x8, .f32⟩
  | .hbm, ⟨34, _⟩ => ⟨S8192x1x8, .f32⟩
  | .hbm, ⟨35, _⟩ => ⟨S8192x8, .f32⟩
  | .hbm, ⟨36, _⟩ => ⟨S8192x8, .f32⟩
  | .hbm, ⟨37, _⟩ => ⟨S8192x8, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8297, .f32⟩
  | .hbm, ⟨44, _⟩ => ⟨S8192, .i32⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S8297, .i32⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S_, .i32⟩
  | .hbm, ⟨56, _⟩ => ⟨S8192, .i32⟩
  | .hbm, ⟨57, _⟩ => ⟨S8192, .i32⟩
  | .hbm, ⟨58, _⟩ => ⟨S_, .i32⟩
  | .hbm, ⟨59, _⟩ => ⟨S8192, .i32⟩
  | .hbm, ⟨60, _⟩ => ⟨S8192, .i32⟩
  | .hbm, ⟨61, _⟩ => ⟨S8297, .i32⟩
  | .hbm, ⟨62, _⟩ => ⟨S4000000x1, .i32⟩
  | .hbm, ⟨63, _⟩ => ⟨S4000000, .f32⟩
  | .hbm, ⟨64, _⟩ => ⟨S_, .i32⟩
  | .hbm, ⟨65, _⟩ => ⟨S_, .f32⟩
  | .hbm, ⟨66, _⟩ => ⟨S4014080, .f32⟩
  | .hbm, ⟨67, _⟩ => ⟨S_, .i32⟩
  | .hbm, ⟨68, _⟩ => ⟨S_, .i32⟩
  | .hbm, ⟨69, _⟩ => ⟨S4014080, .i32⟩
  | .hbm, ⟨70, _⟩ => ⟨S2x136x128, .f32⟩
  | .hbm, ⟨71, _⟩ => ⟨S_, .f32⟩
  | .hbm, ⟨72, _⟩ => ⟨S136x128, .f32⟩
  | .hbm, ⟨73, _⟩ => ⟨S17408, .f32⟩
  | .hbm, ⟨74, _⟩ => ⟨S16399, .f32⟩
  | .hbm, ⟨75, _⟩ => ⟨S1, .f32⟩
  | .hbm, ⟨76, _⟩ => ⟨S_, .f32⟩
  | .hbm, ⟨77, _⟩ => ⟨S_, .i32⟩
  | .hbm, ⟨78, _⟩ => ⟨S8297, .i32⟩
  | .hbm, ⟨79, _⟩ => ⟨S8297, .i1⟩
  | .hbm, ⟨80, _⟩ => ⟨S_, .i32⟩
  | .hbm, ⟨81, _⟩ => ⟨S8297, .i32⟩
  | .hbm, ⟨82, _⟩ => ⟨S8297, .i32⟩
  | .hbm, ⟨83, _⟩ => ⟨S8297, .i32⟩
  | .hbm, ⟨84, _⟩ => ⟨S8297x1, .i32⟩
  | .hbm, ⟨85, _⟩ => ⟨S8297, .f32⟩
  | .hbm, ⟨86, _⟩ => ⟨S8297, .f32⟩
  | .hbm, ⟨87, _⟩ => ⟨S_, .i32⟩
  | .hbm, ⟨88, _⟩ => ⟨S8297, .i32⟩
  | .hbm, ⟨89, _⟩ => ⟨S8297, .i1⟩
  | .hbm, ⟨90, _⟩ => ⟨S_, .i32⟩
  | .hbm, ⟨91, _⟩ => ⟨S8297, .i32⟩
  | .hbm, ⟨92, _⟩ => ⟨S8297, .i32⟩
  | .hbm, ⟨93, _⟩ => ⟨S8297, .i32⟩
  | .hbm, ⟨94, _⟩ => ⟨S8297x1, .i32⟩
  | .hbm, ⟨95, _⟩ => ⟨S8297, .f32⟩
  | .hbm, ⟨96, _⟩ => ⟨S8297, .f32⟩
  | .hbm, ⟨97, _⟩ => ⟨S_, .f32⟩
  | .hbm, ⟨98, _⟩ => ⟨S_, .f32⟩
  | .hbm, ⟨99, _⟩ => ⟨S_, .f32⟩
  | .local _ .vmem, ⟨0, _⟩ => ⟨S8192, .f32⟩
  | .local _ .vmem, ⟨1, _⟩ => ⟨S8192, .f32⟩
  | .local _ .vmem, ⟨2, _⟩ => ⟨S8192, .i32⟩
  | .local _ .vmem, ⟨3, _⟩ => ⟨S8192, .i32⟩
  | .local _ .vmem, ⟨4, _⟩ => ⟨S1x136x128, .f32⟩
  | .local _ .vmem, ⟨5, _⟩ => ⟨S1x136x128, .f32⟩
  | _, _ => ⟨S15x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_c_4 : Ref sig .tc := ⟨.hbm, 11, rfl⟩
abbrev main_c_5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_6 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_8 : Ref sig .tc := ⟨.hbm, 45, rfl⟩
abbrev main_v29 : Ref sig .tc := ⟨.hbm, 46, rfl⟩
abbrev main_v30 : Ref sig .tc := ⟨.hbm, 47, rfl⟩
abbrev main_c_9 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_10 : Ref sig .tc := ⟨.hbm, 52, rfl⟩
abbrev main_v34 : Ref sig .tc := ⟨.hbm, 53, rfl⟩
abbrev main_v35 : Ref sig .tc := ⟨.hbm, 54, rfl⟩
abbrev main_c_11 : Ref sig .tc := ⟨.hbm, 55, rfl⟩
abbrev main_v36 : Ref sig .tc := ⟨.hbm, 56, rfl⟩
abbrev main_v37 : Ref sig .tc := ⟨.hbm, 57, rfl⟩
abbrev main_c_12 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call0_v0 : Ref sig .tc := ⟨.hbm, 62, rfl⟩
abbrev main_v41 : Ref sig .tc := ⟨.hbm, 63, rfl⟩
abbrev main_c_13 : Ref sig .tc := ⟨.hbm, 64, rfl⟩
abbrev main_call1_v0 : Ref sig .tc := ⟨.hbm, 65, rfl⟩
abbrev main_v42 : Ref sig .tc := ⟨.hbm, 66, rfl⟩
abbrev main_c_14 : Ref sig .tc := ⟨.hbm, 67, rfl⟩
abbrev main_call2_v0 : Ref sig .tc := ⟨.hbm, 68, rfl⟩
abbrev main_v43 : Ref sig .tc := ⟨.hbm, 69, rfl⟩
abbrev main_v44 : Ref sig .tc := ⟨.hbm, 70, rfl⟩
abbrev main_cst_15 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_16 : Ref sig .tc := ⟨.hbm, 77, rfl⟩
abbrev main_v50 : Ref sig .tc := ⟨.hbm, 78, rfl⟩
abbrev main_v51 : Ref sig .tc := ⟨.hbm, 79, rfl⟩
abbrev main_c_17 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_18 : Ref sig .tc := ⟨.hbm, 87, rfl⟩
abbrev main_v58 : Ref sig .tc := ⟨.hbm, 88, rfl⟩
abbrev main_v59 : Ref sig .tc := ⟨.hbm, 89, rfl⟩
abbrev main_c_19 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_20 : Ref sig .tc := ⟨.hbm, 97, rfl⟩
abbrev main_v66 : Ref sig .tc := ⟨.hbm, 98, rfl⟩
abbrev main_v67 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 245], ![false, false]⟩

@[reducible] def k0_t1_loop : Scf.Loop 32 :=
  let c0_i32_1 : BitVec 32 := 0#32
  let c16_i32 : BitVec 32 := 16#32
  let v5 : BitVec 32 := Scalar.addi c0_i32_1 c16_i32
  let c1_i32 : BitVec 32 := 1#32
  ⟨c0_i32_1, v5, c1_i32⟩
def k0_mult1 (k0_t1 : Fin k0_t1_loop.trips) : BitVec 32 :=
  let c0_i32_4 : BitVec 32 := 0#32
  let c0_i32_1 : BitVec 32 := 0#32
  let c1_i32 : BitVec 32 := 1#32
  let arg5 : BitVec 32 := Scf.iv c0_i32_1 c1_i32 k0_t1
  let c1_i32_3 : BitVec 32 := 1#32
  let v6 : BitVec 32 := Scalar.muli arg5 c1_i32_3
  let v7 : BitVec 32 := Scalar.addi c0_i32_4 v6
  let c512_i32 : BitVec 32 := 512#32
  let v8 : BitVec 32 := Scalar.muli v7 c512_i32
  v8
def k0_off1 (k0_t1 : Fin k0_t1_loop.trips) : Fin 1 → Nat :=
  let c0_i32_4 : BitVec 32 := 0#32
  let c0_i32_1 : BitVec 32 := 0#32
  let c1_i32 : BitVec 32 := 1#32
  let arg5 : BitVec 32 := Scf.iv c0_i32_1 c1_i32 k0_t1
  let c1_i32_3 : BitVec 32 := 1#32
  let v6 : BitVec 32 := Scalar.muli arg5 c1_i32_3
  let v7 : BitVec 32 := Scalar.addi c0_i32_4 v6
  let c512_i32 : BitVec 32 := 512#32
  let v8 : BitVec 32 := Scalar.muli v7 c512_i32
  let v9 : BitVec 32 := v8
  let v10 : Index := Scalar.indexCast v9
  ![v10.toNat]
def cc0_transform_0 (i : grid0.Coords) : Fin 1 → Nat :=
  let arg0 : BitVec 32 := BitVec.ofNat 32 (i 0).val
  let arg1 : BitVec 32 := BitVec.ofNat 32 (i 1).val
  let c245_i32 : BitVec 32 := 245#32
  let v0 : BitVec 32 := Scalar.muli arg0 c245_i32
  let v1 : BitVec 32 := Scalar.addi v0 arg1
  let c0_i32 : BitVec 32 := 0#32
  ![v1.toNat]

def cc0_transform_1 (i : grid0.Coords) : Fin 1 → Nat :=
  let arg0 : BitVec 32 := BitVec.ofNat 32 (i 0).val
  let arg1 : BitVec 32 := BitVec.ofNat 32 (i 1).val
  let c245_i32 : BitVec 32 := 245#32
  let v0 : BitVec 32 := Scalar.muli arg0 c245_i32
  let v1 : BitVec 32 := Scalar.addi v0 arg1
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x136x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S105 : S_.BroadcastsInDim S105 (![] : Fin 0 → Fin S105.rank)
  bcast_S105_S105x1_0 : S105.BroadcastsInDim S105x1 (![0] : Fin 1 → Fin S105x1.rank)
  reducesTo_S105x8_S105_d1 : S105x8.ReducesTo [1] S105
  h_S_ : 0 < S_.numel
  shapeCasts_S16384x8_S8192x2x8 : S16384x8.ShapeCasts S8192x2x8
  slices_S8192x2x8_S8192x1x8_0_0_0 : S8192x2x8.Slices ![0, 0, 0] S8192x1x8
  shapeCasts_S8192x1x8_S8192x8 : S8192x1x8.ShapeCasts S8192x8
  slices_S8192x2x8_S8192x1x8_0_1_0 : S8192x2x8.Slices ![0, 1, 0] S8192x1x8
  reducesTo_S8192x8_S8192_d1 : S8192x8.ReducesTo [1] S8192
  concatenates_S105_S8192_S8297_d0 : Shape.Concatenates [S105, S8192] S8297 0
  bcast_S_S8192 : S_.BroadcastsInDim S8192 (![] : Fin 0 → Fin S8192.rank)
  bcast_S4000000_S4000000x1_0 : S4000000.BroadcastsInDim S4000000x1 (![0] : Fin 1 → Fin S4000000x1.rank)
  pads_S4000000_S4014080_0140800 : S4000000.Pads (![0] : Fin 1 → Nat) ![14080] ![0] S4014080
  inb_S1x136x128_S1x136x128_0_0_0 : ∀ a, (![0, 0, 0] : Fin 3 → Nat) a + S1x136x128.size a ≤ S1x136x128.size a
  h_S1x136x128 : 0 < S1x136x128.numel
  shapeCasts_S1x136x128_S136x128 : S1x136x128.ShapeCasts S136x128
  shapeCasts_S136x128_S1x136x128 : S136x128.ShapeCasts S1x136x128
  iota_S136x1_d0_w32 : S136x1.Iotas .tc 32 [0]
  iota_S1x128_d1_w32 : S1x128.Iotas .tc 32 [1]
  h_S512 : 0 < S512.numel
  shapeCasts_S512_S512 : S512.ShapeCasts S512
  shapeCasts_S512_S1x512 : S512.ShapeCasts S1x512
  broadcasts_S136x1_S136x512 : S136x1.Broadcasts S136x512
  broadcasts_S1x512_S136x512 : S1x512.Broadcasts S136x512
  natLt_1_32 : 1 < 32
  bitsLt_bf16_f32 : FTy.bits .bf16 < FTy.bits .f32
  shapeCasts_S512_S512x1 : S512.ShapeCasts S512x1
  broadcasts_S512x1_S512x128 : S512x1.Broadcasts S512x128
  broadcasts_S1x128_S512x128 : S1x128.Broadcasts S512x128
  reducesTo_S2x136x128_S136x128_d0 : S2x136x128.ReducesTo [0] S136x128
  shapeCasts_S136x128_S17408 : S136x128.ShapeCasts S17408
  slices_S17408_S16399_0 : S17408.Slices ![0] S16399
  shapeCasts_S1_S_ : S1.ShapeCasts S_
  bcast_S_S8297 : S_.BroadcastsInDim S8297 (![] : Fin 0 → Fin S8297.rank)
  bcast_S8297_S8297x1_0 : S8297.BroadcastsInDim S8297x1 (![0] : Fin 1 → Fin S8297x1.rank)
  reducesTo_S8297_S_d0 : S8297.ReducesTo [0] S_
  gather_S15x8_S105x1_S105x8_1_0_n_n_0_1_18_wf : GatherDims.WF S15x8 S105x1 S105x8 [1] [0] [] [0] [] 1 ![1, 8]
  gather_S4000000_S4000000x1_S4000000_n_0_n_n_0_1_1_wf : GatherDims.WF S4000000 S4000000x1 S4000000 [] [0] [] [0] [] 1 ![1]
  dot_S136x512_S512x128_S136x128_1_0_0_1_n_n_wf : DotDims.WF S136x512 S512x128 S136x128 [1] [0] [0] [1] [] []
  gather_S16399_S8297x1_S8297_n_0_n_n_0_1_1_wf : GatherDims.WF S16399 S8297x1 S8297 [] [0] [] [0] [] 1 ![1]
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512.size a ≤ S8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192.size a ≤ S4014080.size a
  hwx0_0 : ∀ i : grid0.Coords, EltTy.bits .f32 = 32 ∨ (Rect.block (s := S4014080) S8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S4014080.size a
  hwx0_1 : ∀ i : grid0.Coords, EltTy.bits .i32 = 32 ∨ (Rect.block (s := S4014080) S8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x136x128.size a ≤ S2x136x128.size a
  hwx0_2 : ∀ i : grid0.Coords, EltTy.bits .f32 = 32 ∨ (Rect.block (s := S2x136x128) S1x136x128.size (cc0_transform_2 i) (hinb0_2 i)).WholeWords (EltTy.packing .f32)

variable [Facts₀]

def gather_S15x8_S105x1_S105x8_1_0_n_n_0_1_18 : GatherDims S15x8 S105x1 S105x8 where
  offsetDims := [1]
  collapsedSliceDims := [0]
  operandBatchingDims := []
  startIndicesBatchingDims := []
  startIndexMap := [0]
  indexVectorDim := 1
  sliceSizes := ![1, 8]
  wf := gather_S15x8_S105x1_S105x8_1_0_n_n_0_1_18_wf
def gather_S4000000_S4000000x1_S4000000_n_0_n_n_0_1_1 : GatherDims S4000000 S4000000x1 S4000000 where
  offsetDims := []
  collapsedSliceDims := [0]
  operandBatchingDims := []
  startIndicesBatchingDims := []
  startIndexMap := [0]
  indexVectorDim := 1
  sliceSizes := ![1]
  wf := gather_S4000000_S4000000x1_S4000000_n_0_n_n_0_1_1_wf
def dot_S136x512_S512x128_S136x128_1_0_0_1_n_n : DotDims S136x512 S512x128 S136x128 where
  lhsContracting := [1]
  rhsContracting := [0]
  lhsNonContracting := [0]
  rhsNonContracting := [1]
  lhsBatch := []
  rhsBatch := []
  wf := dot_S136x512_S512x128_S136x128_1_0_0_1_n_n_wf
def gather_S16399_S8297x1_S8297_n_0_n_n_0_1_1 : GatherDims S16399 S8297x1 S8297 where
  offsetDims := []
  collapsedSliceDims := [0]
  operandBatchingDims := []
  startIndicesBatchingDims := []
  startIndexMap := [0]
  indexVectorDim := 1
  sliceSizes := ![1]
  wf := gather_S16399_S8297x1_S8297_n_0_n_n_0_1_1_wf

abbrev win0_0 : Pipeline.Window sig grid0 :=
  Pipeline.Window.ofSpec (Memref.whole main_v42) S8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x136x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S15x8 : Shape := ⟨2, ![15, 8]⟩
abbrev S16384x8 : Shape := ⟨2, ![16384, 8]⟩
abbrev S4000000 : Shape := ⟨1, ![4000000]⟩
abbrev S1 : Shape := ⟨1, ![1]⟩
abbrev S105 : Shape := ⟨1, ![105]⟩
abbrev S_ : Shape := ⟨0, ![]⟩
abbrev S105x1 : Shape := ⟨2, ![105, 1]⟩
abbrev S105x8 : Shape := ⟨2, ![105, 8]⟩
abbrev S8192x2x8 : Shape := ⟨3, ![8192, 2, 8]⟩
abbrev S8192x1x8 : Shape := ⟨3, ![8192, 1, 8]⟩
abbrev S8192x8 : Shape := ⟨2, ![8192, 8]⟩
abbrev S8192 : Shape := ⟨1, ![8192]⟩
abbrev S8297 : Shape := ⟨1, ![8297]⟩
abbrev S4000000x1 : Shape := ⟨2, ![4000000, 1]⟩
abbrev S16399 : Shape := ⟨1, ![16399]⟩
abbrev S8297x1 : Shape := ⟨2, ![8297, 1]⟩

abbrev nBuf : Space → Nat
  | .hbm => 101
  | .vmem => 0
  | .smem => 0
  | _ => 0

abbrev bufTy : (tb : Table) → Fin (tcTables nBuf tb) → BufTy
  | .hbm, ⟨0, _⟩ => ⟨S15x8, .f32⟩
  | .hbm, ⟨1, _⟩ => ⟨S16384x8, .f32⟩
  | .hbm, ⟨2, _⟩ => ⟨S4000000, .f32⟩
  | .hbm, ⟨3, _⟩ => ⟨S1, .f32⟩
  | .hbm, ⟨4, _⟩ => ⟨S4000000, .i32⟩
  | .hbm, ⟨5, _⟩ => ⟨S4000000, .i32⟩
  | .hbm, ⟨6, _⟩ => ⟨S105, .i32⟩
  | .hbm, ⟨7, _⟩ => ⟨S105, .i1⟩
  | .hbm, ⟨8, _⟩ => ⟨S105, .i32⟩
  | .hbm, ⟨9, _⟩ => ⟨S105, .i1⟩
  | .hbm, ⟨10, _⟩ => ⟨S105, .i32⟩
  | .hbm, ⟨11, _⟩ => ⟨S105, .i32⟩
  | .hbm, ⟨12, _⟩ => ⟨S_, .i32⟩
  | .hbm, ⟨13, _⟩ => ⟨S105, .i32⟩
  | .hbm, ⟨14, _⟩ => ⟨S105, .i32⟩
  | .hbm, ⟨15, _⟩ => ⟨S105, .i32⟩
  | .hbm, ⟨16, _⟩ => ⟨S105x1, .i32⟩
  | .hbm, ⟨17, _⟩ => ⟨S105x8, .f32⟩
  | .hbm, ⟨18, _⟩ => ⟨S_, .i32⟩
  | .hbm, ⟨19, _⟩ => ⟨S105, .i32⟩
  | .hbm, ⟨20, _⟩ => ⟨S105, .i32⟩
  | .hbm, ⟨21, _⟩ => ⟨S105, .i32⟩
  | .hbm, ⟨22, _⟩ => ⟨S105x1, .i32⟩
  | .hbm, ⟨23, _⟩ => ⟨S105x8, .f32⟩
  | .hbm, ⟨24, _⟩ => ⟨S105x8, .f32⟩
  | .hbm, ⟨25, _⟩ => ⟨S105x8, .f32⟩
  | .hbm, ⟨26, _⟩ => ⟨S_, .f32⟩
  | .hbm, ⟨27, _⟩ => ⟨S105, .f32⟩
  | .hbm, ⟨28, _⟩ => ⟨S105, .f32⟩
  | .hbm, ⟨29, _⟩ => ⟨S105, .f32⟩
  | .hbm, ⟨30, _⟩ => ⟨S105, .f32⟩
  | .hbm, ⟨31, _⟩ => ⟨S8192x2x8, .f32⟩
  | .hbm, ⟨32, _⟩ => ⟨S8192x1x8, .f32⟩
  | .hbm, ⟨33, _⟩ => ⟨S8192x8, .f32⟩
  | .hbm, ⟨34, _⟩ => ⟨S8192x1x8, .f32⟩
  | .hbm, ⟨35, _⟩ => ⟨S8192x8, .f32⟩
  | .hbm, ⟨36, _⟩ => ⟨S8192x8, .f32⟩
  | .hbm, ⟨37, _⟩ => ⟨S8192x8, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8297, .f32⟩
  | .hbm, ⟨44, _⟩ => ⟨S8192, .i32⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S8297, .i32⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S_, .i32⟩
  | .hbm, ⟨56, _⟩ => ⟨S8192, .i32⟩
  | .hbm, ⟨57, _⟩ => ⟨S8192, .i32⟩
  | .hbm, ⟨58, _⟩ => ⟨S_, .i32⟩
  | .hbm, ⟨59, _⟩ => ⟨S8192, .i32⟩
  | .hbm, ⟨60, _⟩ => ⟨S8192, .i32⟩
  | .hbm, ⟨61, _⟩ => ⟨S8297, .i32⟩
  | .hbm, ⟨62, _⟩ => ⟨S4000000, .f32⟩
  | .hbm, ⟨63, _⟩ => ⟨S_, .i32⟩
  | .hbm, ⟨64, _⟩ => ⟨S4000000, .i32⟩
  | .hbm, ⟨65, _⟩ => ⟨S4000000, .i1⟩
  | .hbm, ⟨66, _⟩ => ⟨S_, .i32⟩
  | .hbm, ⟨67, _⟩ => ⟨S4000000, .i32⟩
  | .hbm, ⟨68, _⟩ => ⟨S4000000, .i32⟩
  | .hbm, ⟨69, _⟩ => ⟨S4000000, .i32⟩
  | .hbm, ⟨70, _⟩ => ⟨S4000000x1, .i32⟩
  | .hbm, ⟨71, _⟩ => ⟨S4000000, .f32⟩
  | .hbm, ⟨72, _⟩ => ⟨S_, .f32⟩
  | .hbm, ⟨73, _⟩ => ⟨S16399, .f32⟩
  | .hbm, ⟨74, _⟩ => ⟨S4000000x1, .i32⟩
  | .hbm, ⟨75, _⟩ => ⟨S16399, .f32⟩
  | .hbm, ⟨76, _⟩ => ⟨S1, .f32⟩
  | .hbm, ⟨77, _⟩ => ⟨S_, .f32⟩
  | .hbm, ⟨78, _⟩ => ⟨S_, .i32⟩
  | .hbm, ⟨79, _⟩ => ⟨S8297, .i32⟩
  | .hbm, ⟨80, _⟩ => ⟨S8297, .i1⟩
  | .hbm, ⟨81, _⟩ => ⟨S_, .i32⟩
  | .hbm, ⟨82, _⟩ => ⟨S8297, .i32⟩
  | .hbm, ⟨83, _⟩ => ⟨S8297, .i32⟩
  | .hbm, ⟨84, _⟩ => ⟨S8297, .i32⟩
  | .hbm, ⟨85, _⟩ => ⟨S8297x1, .i32⟩
  | .hbm, ⟨86, _⟩ => ⟨S8297, .f32⟩
  | .hbm, ⟨87, _⟩ => ⟨S8297, .f32⟩
  | .hbm, ⟨88, _⟩ => ⟨S_, .i32⟩
  | .hbm, ⟨89, _⟩ => ⟨S8297, .i32⟩
  | .hbm, ⟨90, _⟩ => ⟨S8297, .i1⟩
  | .hbm, ⟨91, _⟩ => ⟨S_, .i32⟩
  | .hbm, ⟨92, _⟩ => ⟨S8297, .i32⟩
  | .hbm, ⟨93, _⟩ => ⟨S8297, .i32⟩
  | .hbm, ⟨94, _⟩ => ⟨S8297, .i32⟩
  | .hbm, ⟨95, _⟩ => ⟨S8297x1, .i32⟩
  | .hbm, ⟨96, _⟩ => ⟨S8297, .f32⟩
  | .hbm, ⟨97, _⟩ => ⟨S8297, .f32⟩
  | .hbm, ⟨98, _⟩ => ⟨S_, .f32⟩
  | .hbm, ⟨99, _⟩ => ⟨S_, .f32⟩
  | .hbm, ⟨100, _⟩ => ⟨S_, .f32⟩
  | _, _ => ⟨S15x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_c_4 : Ref sig .tc := ⟨.hbm, 11, rfl⟩
abbrev main_c_5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_6 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_8 : Ref sig .tc := ⟨.hbm, 45, rfl⟩
abbrev main_v29 : Ref sig .tc := ⟨.hbm, 46, rfl⟩
abbrev main_v30 : Ref sig .tc := ⟨.hbm, 47, rfl⟩
abbrev main_c_9 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_10 : Ref sig .tc := ⟨.hbm, 52, rfl⟩
abbrev main_v34 : Ref sig .tc := ⟨.hbm, 53, rfl⟩
abbrev main_v35 : Ref sig .tc := ⟨.hbm, 54, rfl⟩
abbrev main_c_11 : Ref sig .tc := ⟨.hbm, 55, rfl⟩
abbrev main_v36 : Ref sig .tc := ⟨.hbm, 56, rfl⟩
abbrev main_v37 : Ref sig .tc := ⟨.hbm, 57, rfl⟩
abbrev main_c_12 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_13 : Ref sig .tc := ⟨.hbm, 63, rfl⟩
abbrev main_v42 : Ref sig .tc := ⟨.hbm, 64, rfl⟩
abbrev main_v43 : Ref sig .tc := ⟨.hbm, 65, rfl⟩
abbrev main_c_14 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_15 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_16 : Ref sig .tc := ⟨.hbm, 78, rfl⟩
abbrev main_v54 : Ref sig .tc := ⟨.hbm, 79, rfl⟩
abbrev main_v55 : Ref sig .tc := ⟨.hbm, 80, rfl⟩
abbrev main_c_17 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_18 : Ref sig .tc := ⟨.hbm, 88, rfl⟩
abbrev main_v62 : Ref sig .tc := ⟨.hbm, 89, rfl⟩
abbrev main_v63 : Ref sig .tc := ⟨.hbm, 90, rfl⟩
abbrev main_c_19 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_20 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  bcast_S_S105 : S_.BroadcastsInDim S105 (![] : Fin 0 → Fin S105.rank)
  bcast_S105_S105x1_0 : S105.BroadcastsInDim S105x1 (![0] : Fin 1 → Fin S105x1.rank)
  reducesTo_S105x8_S105_d1 : S105x8.ReducesTo [1] S105
  h_S_ : 0 < S_.numel
  shapeCasts_S16384x8_S8192x2x8 : S16384x8.ShapeCasts S8192x2x8
  slices_S8192x2x8_S8192x1x8_0_0_0 : S8192x2x8.Slices ![0, 0, 0] S8192x1x8
  shapeCasts_S8192x1x8_S8192x8 : S8192x1x8.ShapeCasts S8192x8
  slices_S8192x2x8_S8192x1x8_0_1_0 : S8192x2x8.Slices ![0, 1, 0] S8192x1x8
  reducesTo_S8192x8_S8192_d1 : S8192x8.ReducesTo [1] S8192
  concatenates_S105_S8192_S8297_d0 : Shape.Concatenates [S105, S8192] S8297 0
  bcast_S_S8192 : S_.BroadcastsInDim S8192 (![] : Fin 0 → Fin S8192.rank)
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S16399 : S_.BroadcastsInDim S16399 (![] : Fin 0 → Fin S16399.rank)
  shapeCasts_S1_S_ : S1.ShapeCasts S_
  bcast_S_S8297 : S_.BroadcastsInDim S8297 (![] : Fin 0 → Fin S8297.rank)
  bcast_S8297_S8297x1_0 : S8297.BroadcastsInDim S8297x1 (![0] : Fin 1 → Fin S8297x1.rank)
  reducesTo_S8297_S_d0 : S8297.ReducesTo [0] S_
  gather_S15x8_S105x1_S105x8_1_0_n_n_0_1_18_wf : GatherDims.WF S15x8 S105x1 S105x8 [1] [0] [] [0] [] 1 ![1, 8]
  gather_S4000000_S4000000x1_S4000000_n_0_n_n_0_1_1_wf : GatherDims.WF S4000000 S4000000x1 S4000000 [] [0] [] [0] [] 1 ![1]
  scatter_S16399_S4000000x1_S4000000_n_0_0_1_wf : ScatterDims.WF S16399 S4000000x1 S4000000 [] [0] [0] 1
  gather_S16399_S8297x1_S8297_n_0_n_n_0_1_1_wf : GatherDims.WF S16399 S8297x1 S8297 [] [0] [] [0] [] 1 ![1]

variable [Facts₀]

def gather_S15x8_S105x1_S105x8_1_0_n_n_0_1_18 : GatherDims S15x8 S105x1 S105x8 where
  offsetDims := [1]
  collapsedSliceDims := [0]
  operandBatchingDims := []
  startIndicesBatchingDims := []
  startIndexMap := [0]
  indexVectorDim := 1
  sliceSizes := ![1, 8]
  wf := gather_S15x8_S105x1_S105x8_1_0_n_n_0_1_18_wf
def gather_S4000000_S4000000x1_S4000000_n_0_n_n_0_1_1 : GatherDims S4000000 S4000000x1 S4000000 where
  offsetDims := []
  collapsedSliceDims := [0]
  operandBatchingDims := []
  startIndicesBatchingDims := []
  startIndexMap := [0]
  indexVectorDim := 1
  sliceSizes := ![1]
  wf := gather_S4000000_S4000000x1_S4000000_n_0_n_n_0_1_1_wf
def scatter_S16399_S4000000x1_S4000000_n_0_0_1 : ScatterDims S16399 S4000000x1 S4000000 where
  updateWindowDims := []
  insertedWindowDims := [0]
  scatterDimsToOperandDims := [0]
  indexVectorDim := 1
  wf := scatter_S16399_S4000000x1_S4000000_n_0_0_1_wf
def gather_S16399_S8297x1_S8297_n_0_n_n_0_1_1 : GatherDims S16399 S8297x1 S8297 where
  offsetDims := []
  collapsedSliceDims := [0]
  operandBatchingDims := []
  startIndicesBatchingDims := []
  startIndexMap := [0]
  indexVectorDim := 1
  sliceSizes := ![1]
  wf := gather_S16399_S8297x1_S8297_n_0_n_n_0_1_1_wf

class Facts : Prop extends Facts₀ where

variable [Facts]
-- ==== Proof.LoopValue.lean ====
/-
  What the kernel body leaves in the output block, as a recursion over the loop's trips. Each trip loads chunk `k`
  of the two input blocks and the whole output block, and stores over the whole output block ONE value: the
  payload of those three loads. So after `k` trips the block holds `acc … k`: the block as the loop found it,
  pushed through the payload once per trip. The first point of a core's run zeroes the block before the loop;
  every later point starts from what the point before left.
-/
import proofs.«428178_j65979287601801_3_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Cert.KernelIdeal Cert.KernelIdeal.Gen
open Idealize.ShloMosaic.Pipeline (Dat)

namespace Cert.KernelIdeal.Hist

variable {F : FTy → Type} [FloatOps F]

theorem hz3 : (![0, 0, 0] : Fin 3 → Nat) = fun _ => 0 := funext fun a => by fin_cases a <;> rfl

/-- The whole-block rectangle every store and every load of the output block goes through. -/
abbrev wholeR : Rect S1x136x128 := Rect.unit (s := S1x136x128) ![0, 0, 0] S1x136x128.size inb_S1x136x128_S1x136x128_0_0_0

/-- Chunk `k`'s rectangle of an input block: 512 entries from `512 k`. -/
abbrev chunkR (k : Fin k0_t1_loop.trips) : Rect S8192 := Rect.unit (s := S8192) (k0_off1 k) S512.size (k0_off1_inb k)

/-- One trip's pieces, read once off the trip's run: one store over the whole block of the payload of the trip's loads. -/
theorem tripL_eq (𝒱 : Variants) (c : Dev nD) (bd : Option 𝒱.V) (i : grid0.Coords)
    (a2 : Memref sig .tc .vmem S8192 .f32) (h2 : a2.IsWhole) (a3 : Memref sig .tc .vmem S8192 .i32) (h3 : a3.IsWhole)
    (a4 : Memref sig .tc .vmem S1x136x128 .f32) (h4 : a4.IsWhole)
    (X2 : BufTy.Contents (Elt F) a2.view.ty) (X3 : BufTy.Contents (Elt F) a3.view.ty) (k : Fin k0_t1_loop.trips)
    (f : BufTy.Contents (Elt F) a4.view.ty) :
    tripL_k0_t1 (F := F) 𝒱 c bd i a2 h2 a3 h3 a4 h4 X2 X3 k f
      = [⟨wholeR, k0_pay2 (View.ld (a2.view.read (Elt F) X2) (chunkR k)) (View.ld (a3.view.read (Elt F) X3) (chunkR k))
            (View.ld (a4.view.read (Elt F) f) wholeR)⟩] := by
  unfold tripL_k0_t1 trip_k0_t1
  rfl

/-- The output block after `k` trips, from the two input blocks and the block `a` the loop found. -/
def acc (x0 : Vec F S8192 .f32) (x1 : Vec F S8192 .i32) (a : Vec F S1x136x128 .f32) : ℕ → Vec F S1x136x128 .f32
  | 0 => a
  | k + 1 =>
    if h : k < k0_t1_loop.trips then
      k0_pay2 (View.ld x0 (chunkR ⟨k, h⟩)) (View.ld x1 (chunkR ⟨k, h⟩)) (acc x0 x1 a k)
    else acc x0 x1 a k

theorem acc_succ (x0 : Vec F S8192 .f32) (x1 : Vec F S8192 .i32) (a : Vec F S1x136x128 .f32) (k : Fin k0_t1_loop.trips) :
    acc x0 x1 a (k.val + 1) = k0_pay2 (View.ld x0 (chunkR k)) (View.ld x1 (chunkR k)) (acc x0 x1 a k.val) := by
  rw [acc]; exact dif_pos k.isLt

/-- The pieces of the trips before `k`, written over contents `G`, read back as `acc`. -/
theorem read_writes_pb (𝒱 : Variants) (c : Dev nD) (bd : Option 𝒱.V) (i : grid0.Coords)
    (a2 : Memref sig .tc .vmem S8192 .f32) (h2 : a2.IsWhole) (a3 : Memref sig .tc .vmem S8192 .i32) (h3 : a3.IsWhole)
    (a4 : Memref sig .tc .vmem S1x136x128 .f32) (h4 : a4.IsWhole)
    (x0 : Vec F S8192 .f32) (x1 : Vec F S8192 .i32) (G : BufTy.Contents (Elt F) a4.view.ty) :
    ∀ k, k ≤ k0_t1_loop.trips →
      a4.view.read (Elt F) (a4.view.writes (Elt F) G (pb_k0_t1 (F := F) 𝒱 c bd i a2 h2 a3 h3 a4 h4 (h2.unread x0) (h3.unread x1) G k))
        = acc x0 x1 (a4.view.read (Elt F) G) k
  | 0, _ => rfl
  | k + 1, hk => by
    have ih := read_writes_pb 𝒱 c bd i a2 h2 a3 h3 a4 h4 x0 x1 G k (Nat.le_of_succ_le hk)
    rw [pb_k0_t1_succ 𝒱 c bd i a2 h2 a3 h3 a4 h4 (h2.unread x0) (h3.unread x1) G ⟨k, hk⟩, View.writes_append, tripL_eq]
    rw [View.read_writes_eq_canon _ _ _ (fun y => ⟨_, List.mem_singleton_self _,
      View.mem_set_unit_zero hz3 inb_S1x136x128_S1x136x128_0_0_0 y⟩)]
    rw [View.canon_unit_zero hz3, h2.read_unread, h3.read_unread, View.ld_unit_zero (S := S1x136x128) hz3, ih,
      acc_succ x0 x1 _ ⟨k, hk⟩]

/-- A point that is not the first of its core's run: over the block `xo2` the point before left, the body leaves the
    sixteen trips' accumulation. -/
theorem out_B (c : Dev nD) (i : grid0.Coords)
    (a2 : Memref sig .tc .vmem S8192 .f32) (h2 : a2.IsWhole) (a3 : Memref sig .tc .vmem S8192 .i32) (h3 : a3.IsWhole)
    (a4 : Memref sig .tc .vmem S1x136x128 .f32) (h4 : a4.IsWhole) (hc : ¬cond0_0 i)
    (x0 : Vec F S8192 .f32) (x1 : Vec F S8192 .i32) (xo2 : Vec F S1x136x128 .f32) :
    out0_B_2 c i a2 h2 a3 h3 a4 h4 hc x0 x1 xo2 = acc x0 x1 xo2 k0_t1_loop.trips := by
  unfold out0_B_2
  rw [View.read_writes_eq_canon _ _ _ (cover0_B_2 c i a2 h2 a3 h3 a4 h4 hc x0 x1 xo2),
    ← View.read_writes_eq_canon a4.view (h4.unread xo2) _ (cover0_B_2 c i a2 h2 a3 h3 a4 h4 hc x0 x1 xo2)]
  have e : (kernelRun0_B c i a2 h2 a3 h3 a4 h4 hc x0 x1 xo2).1
      = pb_k0_t1 (F := F) Variants.none c none i a2 h2 a3 h3 a4 h4 (h2.unread x0) (h3.unread x1) (h4.unread xo2) k0_t1_loop.trips := by
    unfold kernelRun0_B; rfl
  rw [e, read_writes_pb Variants.none c none i a2 h2 a3 h3 a4 h4 x0 x1 (h4.unread xo2) _ le_rfl, h4.read_unread]

/-- The first point of a core's run: the block is zeroed, then accumulated into. -/
theorem out_A (c : Dev nD) (i : grid0.Coords)
    (a2 : Memref sig .tc .vmem S8192 .f32) (h2 : a2.IsWhole) (a3 : Memref sig .tc .vmem S8192 .i32) (h3 : a3.IsWhole)
    (a4 : Memref sig .tc .vmem S1x136x128 .f32) (h4 : a4.IsWhole) (hc : cond0_0 i)
    (x0 : Vec F S8192 .f32) (x1 : Vec F S8192 .i32) :
    out0_A_2 c i a2 h2 a3 h3 a4 h4 hc x0 x1 = acc x0 x1 (k0_pay1 (F := F)) k0_t1_loop.trips := by
  unfold out0_A_2
  rw [View.read_writes_eq_canon _ _ _ (cover0_A_2 c i a2 h2 a3 h3 a4 h4 hc x0 x1),
    ← View.read_writes_eq_canon a4.view a4.view.junk _ (cover0_A_2 c i a2 h2 a3 h3 a4 h4 hc x0 x1)]
  have e : (kernelRun0_A c i a2 h2 a3 h3 a4 h4 hc x0 x1).1
      = pb_k0_t1 (F := F) Variants.none c none i a2 h2 a3 h3 a4 h4 (h2.unread x0) (h3.unread x1)
          (a4.view.writes (Elt F) a4.view.junk [⟨wholeR, k0_pay1 (F := F)⟩]) k0_t1_loop.trips ++ [⟨wholeR, k0_pay1 (F := F)⟩] := by
    unfold kernelRun0_A
    dsimp only
    sl_unfold_words
    rfl
  rw [e, View.writes_append, read_writes_pb Variants.none c none i a2 h2 a3 h3 a4 h4 x0 x1 _ _ le_rfl]
  congr 1
  rw [View.read_writes_eq_canon _ _ _ (fun y => ⟨_, List.mem_singleton_self _,
    View.mem_set_unit_zero hz3 inb_S1x136x128_S1x136x128_0_0_0 y⟩), View.canon_unit_zero hz3]

end Cert.KernelIdeal.Hist

end
-- ==== Proof.PayValue.lean ====
/-
  The loop body's stored value, read at an index (row `hi`, lane `lo` of the [1, 136, 128] block), at the
  ideal instance: what the trip found in the block there, plus the sum over the chunk's 512 entries of
  `exp` of the entry's weight where the entry's key is the bucket `128 * hi + lo` and zero elsewhere.
-/
import proofs.«428178_j65979287601801_3_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.TcCoe Idealize.SL.Sem Idealize.ShloMosaic.ValueIdx
open Cert.KernelIdeal Cert.KernelIdeal.Gen

namespace Cert.KernelIdeal.Hist

/-! ## Layout: a vector stood up as a column, and a column spread over many columns -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A key and its bucket

A 32-bit key `k`, read signed, is `128 * hi + lo` with `hi < 136` and `lo < 128` exactly when its arithmetic shift right
by 7 is `hi` and its low seven bits are `lo`: the shift is the floor of `k / 128` and the mask is `k mod 128`. -/

/-- A natural below `2 ^ 31` is its own 32-bit word read signed. -/
theorem toInt_ofNat_small (n : Nat) (h : n < 2147483648) : (BitVec.ofNat 32 n).toInt = (n : ℤ) := by
  rw [BitVec.toInt_eq_toNat_cond, BitVec.toNat_ofNat]
  have : n % 2 ^ 32 = n := Nat.mod_eq_of_lt (by omega)
  rw [this]
  split
  · rfl
  · omega

/-- The arithmetic shift right by 7, read signed, is the floor of the quotient by 128. -/
theorem shr7_toInt (k : BitVec 32) : (IntOp.shrsi .vector k 7#32).toInt = k.toInt / 128 := by
  unfold IntOp.shrsi
  rw [if_pos (by decide), BitVec.toInt_sshiftRight', Int.shiftRight_eq_div_pow]
  rfl

/-- The mask with 127, read unsigned, is the remainder by 128. -/
theorem and127_toNat (k : BitVec 32) : (IntOp.andi k 127#32).toNat = k.toNat % 128 := by
  unfold IntOp.andi
  rw [BitVec.toNat_and]
  exact Nat.and_two_pow_sub_one_eq_mod k.toNat 7

/-- The two halves name the bucket `(hi, lo)` exactly when the key is `128 * hi + lo`. -/
theorem key_split (k : BitVec 32) (hi : Fin 136) (lo : Fin 128) :
    (IntOp.shrsi .vector k 7#32 = BitVec.ofNat 32 hi.val ∧ IntOp.andi k 127#32 = BitVec.ofNat 32 lo.val)
      ↔ k.toInt = 128 * (hi.val : ℤ) + (lo.val : ℤ) := by
  have h1 := shr7_toInt k
  have h2 := and127_toNat k
  have h3 := BitVec.toInt_eq_toNat_cond k
  have h4 := k.isLt
  have hhi := hi.isLt
  have hlo := lo.isLt
  rw [← BitVec.toInt_inj, ← BitVec.toNat_inj (x := IntOp.andi k 127#32), h1, h2, toInt_ofNat_small _ (by omega), BitVec.toNat_ofNat,
    Nat.mod_eq_of_lt (show lo.val < 2 ^ 32 by omega)]
  split at h3 <;> omega

/-- A one-bit truth value widened to 32 bits and read as a float is `1` or `0`. -/
theorem onehot_word (b : Bool) : ((((BitVec.ofBool b).setWidth 32).toInt : ℝ) : EReal) = if b then 1 else 0 := by
  cases b
  · simp
  · simp

/-- One contracted entry's term: the row test, the weight and the lane test multiply to the weight on the key's own
    bucket and to zero on every other. -/
theorem bucket_term (k : BitVec 32) (x : EReal) (hi : Fin 136) (lo : Fin 128) :
    (if (BitVec.ofNat 32 hi.val == IntOp.shrsi .vector k 7#32) then (1 : EReal) else 0) * x
        * (if (IntOp.andi k 127#32 == BitVec.ofNat 32 lo.val) then (1 : EReal) else 0)
      = if k.toInt = 128 * (hi.val : ℤ) + (lo.val : ℤ) then x else 0 := by
  have hs := key_split k hi lo
  by_cases h : k.toInt = 128 * (hi.val : ℤ) + (lo.val : ℤ)
  · obtain ⟨h1, h2⟩ := hs.mpr h
    have c1 : (BitVec.ofNat 32 hi.val == IntOp.shrsi .vector k 7#32) = true := by rw [h1]; exact beq_self_eq_true _
    have c2 : (IntOp.andi k 127#32 == BitVec.ofNat 32 lo.val) = true := by rw [h2]; exact beq_self_eq_true _
    rw [if_pos c1, if_pos c2, if_pos h, one_mul, mul_one]
  · rw [if_neg h]
    by_cases h1 : IntOp.shrsi .vector k 7#32 = BitVec.ofNat 32 hi.val
    · have c2 : ¬(IntOp.andi k 127#32 == BitVec.ofNat 32 lo.val) = true := fun hc => h (hs.mp ⟨h1, eq_of_beq hc⟩)
      rw [if_neg c2, mul_zero]
    · have c1 : ¬(BitVec.ofNat 32 hi.val == IntOp.shrsi .vector k 7#32) = true := fun hc => h1 (eq_of_beq hc).symm
      rw [if_neg c1, zero_mul, zero_mul]

/-! ## The product's two operands at an index -/

/-- The row test at `(hi, e)`: `1` where the row number is entry `e`'s word `K e`, else `0`. -/
theorem rowHot_apply (K : IVec S512 32) (hi : Fin 136) (e : Fin 512) :
    (truncf .bf16 (sitofp .f32 (extui 32 (cmpi .eq
        (broadcastTo S136x512 (iota .tc S136x1 32 [0] iota_S136x1_d0_w32) broadcasts_S136x1_S136x512)
        (broadcastTo S136x512 (shapeCast S1x512 K shapeCasts_S512_S1x512) broadcasts_S1x512_S136x512))
      natLt_1_32)) bitsLt_bf16_f32 : FVec Ideal S136x512 .bf16) (ix2 hi e)
      = if (BitVec.ofNat 32 hi.val == K (ix1 e)) then (1 : EReal) else 0 := by
  rw [truncf_apply, sitofp_apply, extui_apply]
  show ((((BitVec.ofBool
      (broadcastTo S136x512 (iota .tc S136x1 32 [0] iota_S136x1_d0_w32) broadcasts_S136x1_S136x512 (ix2 hi e)
        == broadcastTo S136x512 (shapeCast S1x512 K shapeCasts_S512_S1x512) broadcasts_S1x512_S136x512 (ix2 hi e))).setWidth 32).toInt : ℝ) : EReal) = _
  rw [broadcastTo_a1_ab_apply, broadcastTo_1b_ab_apply, shapeCast_a_1a_apply, iota_single_apply]
  exact onehot_word _

/-- The lane test at `(e, lo)`: `1` where entry `e`'s word `K e` is the lane number, else `0`. -/
theorem laneHot_apply (K : IVec S512 32) (e : Fin 512) (lo : Fin 128) :
    (truncf .bf16 (sitofp .f32 (extui 32 (cmpi .eq
        (broadcastTo S512x128 (shapeCast S512x1 K shapeCasts_S512_S512x1) broadcasts_S512x1_S512x128)
        (broadcastTo S512x128 (iota .tc S1x128 32 [1] iota_S1x128_d1_w32) broadcasts_S1x128_S512x128))
      natLt_1_32)) bitsLt_bf16_f32 : FVec Ideal S512x128 .bf16) (ix2 e lo)
      = if (K (ix1 e) == BitVec.ofNat 32 lo.val) then (1 : EReal) else 0 := by
  rw [truncf_apply, sitofp_apply, extui_apply]
  show ((((BitVec.ofBool
      (broadcastTo S512x128 (shapeCast S512x1 K shapeCasts_S512_S512x1) broadcasts_S512x1_S512x128 (ix2 e lo)
        == broadcastTo S512x128 (iota .tc S1x128 32 [1] iota_S1x128_d1_w32) broadcasts_S1x128_S512x128 (ix2 e lo))).setWidth 32).toInt : ℝ) : EReal) = _
  rw [broadcastTo_a1_ab_apply, broadcastTo_1b_ab_apply, shapeCast_a_a1_apply, iota_single_apply]
  exact onehot_word _

/-- The weights' row spread over the 136 rows reads, at `(hi, e)`, entry `e`'s weight. -/
theorem weightRow_apply (w : FVec Ideal S512 .f32) (hi : Fin 136) (e : Fin 512) :
    (broadcastTo S136x512 (truncf .bf16 (shapeCast S1x512 w shapeCasts_S512_S1x512) bitsLt_bf16_f32)
      broadcasts_S1x512_S136x512 : FVec Ideal S136x512 .bf16) (ix2 hi e) = w (ix1 e) := by
  rw [broadcastTo_1b_ab_apply, truncf_apply, shapeCast_a_1a_apply]

/-! ## The product at an index: rows of the left operand against columns of the right -/

theorem lhs_axis0 (i : S136x128.Idx) (q : dot_S136x512_S512x128_S136x128_1_0_0_1_n_n.contr.Idx) :
    (dot_S136x512_S512x128_S136x128_1_0_0_1_n_n.lhsIdx i q 0).val = (i 0).val := by
  unfold DotDims.lhsIdx
  rw [dif_neg (show ¬(0 : Fin S136x512.rank) ∈ dot_S136x512_S512x128_S136x128_1_0_0_1_n_n.lhsBatch by decide),
    dif_pos (show (0 : Fin S136x512.rank) ∈ dot_S136x512_S512x128_S136x128_1_0_0_1_n_n.lhsNonContracting by decide)]
  rfl

theorem lhs_axis1 (i : S136x128.Idx) (q : dot_S136x512_S512x128_S136x128_1_0_0_1_n_n.contr.Idx) :
    (dot_S136x512_S512x128_S136x128_1_0_0_1_n_n.lhsIdx i q 1).val = (q ⟨0, by decide⟩).val :=
  dot_S136x512_S512x128_S136x128_1_0_0_1_n_n.lhsIdx_val_of_single rfl i q

theorem rhs_axis0 (i : S136x128.Idx) (q : dot_S136x512_S512x128_S136x128_1_0_0_1_n_n.contr.Idx) :
    (dot_S136x512_S512x128_S136x128_1_0_0_1_n_n.rhsIdx i q 0).val = (q ⟨0, by decide⟩).val :=
  dot_S136x512_S512x128_S136x128_1_0_0_1_n_n.rhsIdx_val_of_single rfl i q

theorem rhs_axis1 (i : S136x128.Idx) (q : dot_S136x512_S512x128_S136x128_1_0_0_1_n_n.contr.Idx) :
    (dot_S136x512_S512x128_S136x128_1_0_0_1_n_n.rhsIdx i q 1).val = (i 1).val := by
  unfold DotDims.rhsIdx
  rw [dif_neg (show ¬(1 : Fin S512x128.rank) ∈ dot_S136x512_S512x128_S136x128_1_0_0_1_n_n.rhsBatch by decide),
    dif_pos (show (1 : Fin S512x128.rank) ∈ dot_S136x512_S512x128_S136x128_1_0_0_1_n_n.rhsNonContracting by decide)]
  rfl

/-- The product into a zero accumulator, at `(hi, lo)`: the sum over the 512 contracted entries of the left operand's
    row `hi` against the right operand's column `lo`. -/
theorem matmul_at (A : FVec Ideal S136x512 .bf16) (B : FVec Ideal S512x128 .bf16) (hi : Fin 136) (lo : Fin 128) :
    matmul (F := Ideal) dot_S136x512_S512x128_S136x128_1_0_0_1_n_n none A B (constant (F := Ideal) S136x128 .f32 0x00000000#32) (ix2 hi lo)
      = ∑ e : Fin 512, A (ix2 hi e) * B (ix2 e lo) := by
  simp only [matmul]
  rw [Ideal.matmul_constant_zero_apply, ← Equiv.sum_comp (contrEquiv1 dot_S136x512_S512x128_S136x128_1_0_0_1_n_n 512 rfl rfl).symm]
  refine Finset.sum_congr rfl fun k _ => ?_
  have hk := contrEquiv1_symm_val dot_S136x512_S512x128_S136x128_1_0_0_1_n_n 512 rfl rfl k
  have el : dot_S136x512_S512x128_S136x128_1_0_0_1_n_n.lhsIdx (ix2 hi lo) ((contrEquiv1 dot_S136x512_S512x128_S136x128_1_0_0_1_n_n 512 rfl rfl).symm k) = ix2 hi k :=
    funext fun a => Fin.ext (by
      match a with
      | ⟨0, _⟩ => exact lhs_axis0 _ _
      | ⟨1, _⟩ => exact (lhs_axis1 _ _).trans hk)
  have er : dot_S136x512_S512x128_S136x128_1_0_0_1_n_n.rhsIdx (ix2 hi lo) ((contrEquiv1 dot_S136x512_S512x128_S136x128_1_0_0_1_n_n 512 rfl rfl).symm k) = ix2 k lo :=
    funext fun a => Fin.ext (by
      match a with
      | ⟨0, _⟩ => exact (rhs_axis0 _ _).trans hk
      | ⟨1, _⟩ => exact rhs_axis1 _ _)
  rw [el, er]

/-! ## The two stored values -/

/-- The reset stores zero everywhere. -/
theorem pay1_apply (j : S1x136x128.Idx) : k0_pay1 (F := Ideal) j = 0 := by
  unfold k0_pay1
  show Ideal.ofBits .f32 0x00000000#32 = 0
  exact Ideal.ofBits_zero_f32

/-- One trip's stored block at (0, hi, lo): the block as found, plus the chunk's contributions to bucket 128·hi + lo. -/
theorem pay2_apply (v11 : Vec Ideal S512 .f32) (v15 : Vec Ideal S512 .i32) (v40 : Vec Ideal S1x136x128 .f32)
    (hi : Fin 136) (lo : Fin 128) :
    k0_pay2 (F := Ideal) v11 v15 v40 (ix3 (0 : Fin 1) hi lo)
      = (v40 (ix3 (0 : Fin 1) hi lo) : EReal)
        + ∑ e : Fin 512, (if ((v15 (ix1 e) : BitVec 32)).toInt = 128 * (hi.val : ℤ) + (lo.val : ℤ)
            then Ideal.exp (v11 (ix1 e) : EReal) else 0) := by
  unfold k0_pay2
  simp only [shapeCast_self]
  rw [shapeCast_ab_1ab_apply, addf_apply, shapeCast_1ab_ab_apply, matmul_at]
  congr 1
  refine Finset.sum_congr rfl fun e _ => ?_
  rw [mulf_apply, rowHot_apply, weightRow_apply, laneHot_apply]
  exact bucket_term (v15 (ix1 e)) (Ideal.exp (v11 (ix1 e))) hi lo

end Cert.KernelIdeal.Hist

end
-- ==== Proof.KHost.lean ====
/-
  The two arrays the histogram kernel is launched on, as @main's lines before the launch leave them: the weights'
  exponents `gamma` gathered at the node ids and padded with zeros to 4,014,080 entries, and the cluster ids padded
  with the out-of-table key 17408 = 128 · 136. Grid point `t` reads entries `8192 t … 8192 t + 8191` of each.
-/
import proofs.«428178_j65979287601801_3_alg».proof.Proof.Gen.KernelIdeal.Frame
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Cert.KernelIdeal Cert.KernelIdeal.Gen
open Idealize.ShloMosaic.Pipeline (Dat)

namespace Cert.KernelIdeal.Hist

variable (m : (ℓ : Loc nD τ sig) → Buf (Elt Ideal) ℓ)

/-- The padded, gathered `gamma` as the launch finds it, entry `n` (zero past the array). -/
def gp (c : Dev nD) (n : ℕ) : EReal :=
  if h : n < 4014080 then (V m c main_v42 : S4014080.Idx → EReal) (ix1 ⟨n, h⟩) else 0

/-- The padded cluster ids as the launch finds them, entry `n`. -/
def kp (c : Dev nD) (n : ℕ) : BitVec 32 :=
  if h : n < 4014080 then (V m c main_v43 : S4014080.Idx → BitVec 32) (ix1 ⟨n, h⟩) else 0#32

/-- The first operand of the launch as a term: `gamma` gathered at the node ids, then padded with the float of the
    integer 0 from 4,000,000 up to 4,014,080 entries. -/
theorem v42_eq (c : Dev nD) :
    (V m c main_v42 : S4014080.Idx → EReal) =
      pad S4014080 ![0] ![14080] ![0]
        (Host.gather gather_S4000000_S4000000x1_S4000000_n_0_n_n_0_1_1 (m ((c.tc : Thread nD τ).loc main_arg2))
          (broadcastInDim S4000000x1 ![0] bcast_S4000000_S4000000x1_0 (m ((c.tc : Thread nD τ).loc main_arg5))))
        (sitofp (F := Ideal) .f32 (constantI S_ 32 0#32)) pads_S4000000_S4014080_0140800 h_S_ := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  simp only [StableHlo.TRef.ofBuf, StableHlo.TRef.toBuf, cast_eq]

/-- The second operand of the launch as a term: the cluster ids padded with the key 17408. -/
theorem v43_eq (c : Dev nD) :
    (V m c main_v43 : S4014080.Idx → BitVec 32) =
      pad S4014080 ![0] ![14080] ![0] (m ((c.tc : Thread nD τ).loc main_arg4))
        (constantI S_ 32 17408#32) pads_S4000000_S4014080_0140800 h_S_ := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  simp only [StableHlo.TRef.ofBuf, StableHlo.TRef.toBuf, cast_eq, id_eq]

/-- A vector of 4,000,000 entries padded at the high end to 4,014,080, read below 4,000,000: the vector's entry. -/
theorem pad_hi_lt {α : Type} (x : S4000000.Idx → α) {u : Shape} (v : u.Idx → α)
    (hp : S4000000.Pads (![0] : Fin 1 → Nat) ![14080] ![0] S4014080) (hu : 0 < u.numel)
    (n : ℕ) (h : n < 4000000) (h' : n < 4014080) :
    pad S4014080 ![0] ![14080] ![0] x v hp hu (ix1 ⟨n, h'⟩) = x (ix1 ⟨n, h⟩) := by
  unfold pad
  rw [dif_pos (fun a => match a with
    | ⟨0, _⟩ => (show 0 ≤ n ∧ (n - 0) % (0 + 1) = 0 ∧ (n - 0) / (0 + 1) < 4000000 from ⟨by omega, by omega, by omega⟩))]
  refine congrArg x (funext fun a => Fin.ext ?_)
  match a with
  | ⟨0, _⟩ => show (n - 0) / (0 + 1) = n; omega

/-- The same read from 4,000,000 on: the padding value. -/
theorem pad_hi_ge {α : Type} (x : S4000000.Idx → α) {u : Shape} (v : u.Idx → α)
    (hp : S4000000.Pads (![0] : Fin 1 → Nat) ![14080] ![0] S4014080) (hu : 0 < u.numel)
    (n : ℕ) (h : 4000000 ≤ n) (h' : n < 4014080) :
    pad S4014080 ![0] ![14080] ![0] x v hp hu (ix1 ⟨n, h'⟩) = v (Shape.Idx.first hu) := by
  unfold pad
  rw [dif_neg (fun hin => by
    have h0 : (n - 0) / (0 + 1) < 4000000 := (hin (0 : Fin 1)).2.2
    omega)]

/-- Grid point `t`'s block of the first operand is entries `8192 t + e` of the padded `gamma`. -/
theorem xblk_apply (c : Dev nD) (t : Fin cfg0.N) (e : Fin 8192) :
    (iblk m c 0 t : Vec Ideal S8192 .f32) (ix1 e) = gp m c (t.val * 8192 + e.val) := by
  have hi : win0_0.index t (0 : Fin 1) = t.val :=
    (by decide +kernel : ∀ t : Fin grid0.N, win0_0.index t (0 : Fin 1) = t.val) t
  have ht : t.val < 490 := Nat.lt_of_lt_of_eq t.isLt Gen.N_0
  have he : e.val < 8192 := e.isLt
  have hn : t.val * 8192 + e.val < 4014080 := by omega
  unfold gp
  rw [dif_pos hn]
  unfold iblk
  rw [View.read_apply]
  show V m c main_v42 (((cfg0.win 0).blk t).view.emb (ix1 e)) = V m c main_v42 (ix1 ⟨t.val * 8192 + e.val, hn⟩)
  refine congrArg (V m c main_v42 : S4014080.Idx → EReal) (funext fun a => Fin.ext ?_)
  match a with
  | ⟨0, _⟩ => show win0_0.index t 0 * 8192 + 1 * e.val = t.val * 8192 + e.val; rw [hi]; omega

/-- Grid point `t`'s block of the second operand is entries `8192 t + e` of the padded cluster ids. -/
theorem kblk_apply (c : Dev nD) (t : Fin cfg0.N) (e : Fin 8192) :
    (iblk m c 1 t : Vec Ideal S8192 .i32) (ix1 e) = kp m c (t.val * 8192 + e.val) := by
  have hi : win0_1.index t (0 : Fin 1) = t.val :=
    (by decide +kernel : ∀ t : Fin grid0.N, win0_1.index t (0 : Fin 1) = t.val) t
  have ht : t.val < 490 := Nat.lt_of_lt_of_eq t.isLt Gen.N_0
  have he : e.val < 8192 := e.isLt
  have hn : t.val * 8192 + e.val < 4014080 := by omega
  unfold kp
  rw [dif_pos hn]
  unfold iblk
  rw [View.read_apply]
  show V m c main_v43 (((cfg0.win 1).blk t).view.emb (ix1 e)) = V m c main_v43 (ix1 ⟨t.val * 8192 + e.val, hn⟩)
  refine congrArg (V m c main_v43 : S4014080.Idx → BitVec 32) (funext fun a => Fin.ext ?_)
  match a with
  | ⟨0, _⟩ => show win0_1.index t 0 * 8192 + 1 * e.val = t.val * 8192 + e.val; rw [hi]; omega

/-- Below 4,000,000 the padded `gamma` is `gamma` gathered at the node ids. -/
theorem gp_lt (c : Dev nD) (n : ℕ) (h : n < 4000000) :
    gp m c n = (Host.gather gather_S4000000_S4000000x1_S4000000_n_0_n_n_0_1_1 (m ((c.tc : Thread nD τ).loc main_arg2))
      (broadcastInDim S4000000x1 ![0] bcast_S4000000_S4000000x1_0 (m ((c.tc : Thread nD τ).loc main_arg5))) (ix1 ⟨n, h⟩) : EReal) := by
  have hn : n < 4014080 := by omega
  unfold gp
  rw [dif_pos hn]
  exact (congrFun (v42_eq m c) (ix1 ⟨n, hn⟩)).trans (pad_hi_lt _ _ _ _ n h hn)

/-- Below 4,000,000 the padded cluster ids are the cluster ids; -/
theorem kp_lt (c : Dev nD) (n : ℕ) (h : n < 4000000) :
    kp m c n = (m ((c.tc : Thread nD τ).loc main_arg4) : S4000000.Idx → BitVec 32) (ix1 ⟨n, h⟩) := by
  have hn : n < 4014080 := by omega
  unfold kp
  rw [dif_pos hn]
  exact (congrFun (v43_eq m c) (ix1 ⟨n, hn⟩)).trans (pad_hi_lt _ _ _ _ n h hn)

/-- from there on, the padding key. -/
theorem kp_ge (c : Dev nD) (n : ℕ) (h : 4000000 ≤ n) (h' : n < 4014080) : kp m c n = 17408#32 := by
  unfold kp
  rw [dif_pos h']
  exact (congrFun (v43_eq m c) (ix1 ⟨n, h'⟩)).trans (pad_hi_ge _ _ _ _ n h h')

end Cert.KernelIdeal.Hist

end
-- ==== Proof.HistSpec.lean ====
/-
  The histogram as plain sums. One entry `n` of the (padded) element axis contributes `exp (g n)` to the
  bucket `b` exactly when its key `k n`, read as a signed integer, is `b`, and nothing otherwise; a stretch
  of consecutive entries contributes the sum of its entries' contributions. Sums of stretches add, which is
  all the tiling of the element axis (two cores, 245 blocks each, sixteen chunks of 512 per block) uses.
-/
import Idealize.ShloMosaic.PureOps.Ideal
import Idealize.ShloMosaic.Lib.ValueIdx
import Mathlib.Algebra.BigOperators.Intervals
import Mathlib.Algebra.BigOperators.Fin

noncomputable section

namespace Cert.HistSpec

open Idealize.ShloMosaic

/-- The bucket a row `hi` and a lane `lo` of the [136, 128] table stand for. -/
def bucket (hi : Fin 136) (lo : Fin 128) : ℤ := 128 * (hi.val : ℤ) + (lo.val : ℤ)

/-- Entry `n`'s contribution to bucket `b`. -/
def term (g : ℕ → EReal) (k : ℕ → BitVec 32) (b : ℤ) (n : ℕ) : EReal :=
  if (k n).toInt = b then Ideal.exp (g n) else 0

/-- The contribution of the `len` entries from `start` on. -/
def stretch (g : ℕ → EReal) (k : ℕ → BitVec 32) (b : ℤ) (start len : ℕ) : EReal :=
  ∑ i ∈ Finset.range len, term g k b (start + i)

theorem stretch_zero (g : ℕ → EReal) (k : ℕ → BitVec 32) (b : ℤ) (s : ℕ) : stretch g k b s 0 = 0 := by
  simp [stretch]

/-- A stretch followed by the next one is one stretch. -/
theorem stretch_add (g : ℕ → EReal) (k : ℕ → BitVec 32) (b : ℤ) (s l₁ l₂ : ℕ) :
    stretch g k b s (l₁ + l₂) = stretch g k b s l₁ + stretch g k b (s + l₁) l₂ := by
  unfold stretch
  rw [Finset.sum_range_add]
  congr 1
  exact Finset.sum_congr rfl fun i _ => by rw [Nat.add_assoc]

/-- A stretch none of whose keys is the bucket contributes nothing. -/
theorem stretch_eq_zero (g : ℕ → EReal) (k : ℕ → BitVec 32) (b : ℤ) (s l : ℕ)
    (h : ∀ i, i < l → (k (s + i)).toInt ≠ b) : stretch g k b s l = 0 := by
  unfold stretch
  exact Finset.sum_eq_zero fun i hi => by
    unfold term; rw [if_neg (h i (Finset.mem_range.mp hi))]

/-- A stretch depends on its entries only. -/
theorem stretch_congr (g g' : ℕ → EReal) (k k' : ℕ → BitVec 32) (b : ℤ) (s l : ℕ)
    (h : ∀ i, i < l → g (s + i) = g' (s + i) ∧ k (s + i) = k' (s + i)) :
    stretch g k b s l = stretch g' k' b s l := by
  unfold stretch
  exact Finset.sum_congr rfl fun i hi => by
    unfold term; rw [(h i (Finset.mem_range.mp hi)).1, (h i (Finset.mem_range.mp hi)).2]

/-- A stretch from zero, over functions given on `Fin n`, is the sum over `Fin n`. -/
theorem stretch_eq_sum_fin (g : ℕ → EReal) (k : ℕ → BitVec 32) (b : ℤ) (n : ℕ) :
    stretch g k b 0 n = ∑ i : Fin n, term g k b i.val := by
  unfold stretch
  rw [Finset.sum_range]
  exact Finset.sum_congr rfl fun i _ => by rw [Nat.zero_add]

end Cert.HistSpec

end
-- ==== Proof.BodyValue.lean ====
/-
  The output block, read at (0, hi, lo), at the ideal instance. One trip adds to what it finds the contributions to
  bucket `128·hi + lo` of its chunk's 512 entries, so sixteen trips add the block's 8192 entries' contributions, and a
  core's run of grid points adds up the blocks from its first point on: after point `n` the block holds the
  contributions of the entries `8192·(n − n mod 245) … 8192·(n + 1) − 1` of the two padded arrays.
-/
import proofs.«428178_j65979287601801_3_alg».proof.Proof.LoopValue
import proofs.«428178_j65979287601801_3_alg».proof.Proof.PayValue
import proofs.«428178_j65979287601801_3_alg».proof.Proof.KHost
import proofs.«428178_j65979287601801_3_alg».proof.Proof.HistSpec

noncomputable section

open Idealize.ShloMosaic Idealize.ShloMosaic.TcCoe Idealize.SL.Sem Idealize.ShloMosaic.ValueIdx
open Cert.KernelIdeal Cert.KernelIdeal.Gen Cert.HistSpec
open Idealize.ShloMosaic.Pipeline (Dat)

namespace Cert.KernelIdeal.Hist

theorem trips16 : k0_t1_loop.trips = 16 := by decide

/-- Chunk `k` of a block, at its entry `e`, is the block's entry `512 k + e`. -/
theorem ld_chunk_apply {e' : EltTy} (x : Vec Ideal S8192 e') (k : Fin k0_t1_loop.trips) (e : Fin 512)
    (h : 512 * k.val + e.val < 8192) :
    View.ld x (chunkR k) (ix1 e) = x (ix1 ⟨512 * k.val + e.val, h⟩) := by
  show x ((chunkR k).idx (ix1 e)) = _
  congr 1
  funext a
  apply Fin.ext
  match a with
  | ⟨0, _⟩ =>
    show (k0_off1 k) 0 + 1 * e.val = 512 * k.val + e.val
    rw [congrFun (k0_off1_eq k) 0]
    show 512 * k.val + 1 * e.val = _
    omega

/-- After `k` trips, over blocks that are the entries from `s` on of `g` and `kk`: what the loop found plus the first
    `512 k` entries' contributions. -/
theorem acc_apply (g : ℕ → EReal) (kk : ℕ → BitVec 32) (s : ℕ) (x0 : Vec Ideal S8192 .f32) (x1 : Vec Ideal S8192 .i32)
    (hx0 : ∀ e : Fin 8192, (x0 (ix1 e) : EReal) = g (s + e.val))
    (hx1 : ∀ e : Fin 8192, (x1 (ix1 e) : BitVec 32) = kk (s + e.val))
    (a : Vec Ideal S1x136x128 .f32) (hi : Fin 136) (lo : Fin 128) :
    ∀ k, k ≤ k0_t1_loop.trips →
      (acc x0 x1 a k (ix3 (0 : Fin 1) hi lo) : EReal)
        = (a (ix3 (0 : Fin 1) hi lo) : EReal) + stretch g kk (bucket hi lo) s (k * 512)
  | 0, _ => by
    rw [Nat.zero_mul, stretch_zero, add_zero]; rfl
  | k + 1, hk => by
    have hk16 : k < 16 := by have := trips16; omega
    rw [acc_succ x0 x1 a ⟨k, hk⟩, pay2_apply, acc_apply g kk s x0 x1 hx0 hx1 a hi lo k (Nat.le_of_succ_le hk),
      Nat.succ_mul, stretch_add, add_assoc]
    congr 2
    unfold stretch term bucket
    rw [Finset.sum_range]
    refine Finset.sum_congr rfl fun e _ => ?_
    have he : 512 * k + e.val < 8192 := by have := e.isLt; omega
    rw [ld_chunk_apply x1 ⟨k, hk⟩ e he, ld_chunk_apply x0 ⟨k, hk⟩ e he, hx0, hx1]
    have hidx : s + (512 * k + e.val) = s + k * 512 + e.val := by omega
    simp only [hidx]

variable (m : (ℓ : Loc nD τ sig) → Buf (Elt Ideal) ℓ)

/-- After grid point `n` the block holds the contributions of its core's entries so far. -/
theorem outsAt_apply (c : Dev nD) (hi : Fin 136) (lo : Fin 128) : ∀ (n : ℕ) (h : n < cfg0.N),
    ((outsAt0 m c n h : Vec Ideal S1x136x128 .f32) (ix3 (0 : Fin 1) hi lo) : EReal)
      = stretch (gp m c) (kp m c) (bucket hi lo) ((n - n % 245) * 8192) ((n % 245 + 1) * 8192) := by
  intro n
  induction n with
  | zero =>
    intro h
    rw [outsAt0_A m c ⟨0, h⟩ rfl, out_A,
      acc_apply (gp m c) (kp m c) (0 * 8192) _ _ (fun e => xblk_apply m c ⟨0, h⟩ e) (fun e => kblk_apply m c ⟨0, h⟩ e)
        _ hi lo _ le_rfl, pay1_apply, zero_add, trips16]
  | succ n ih =>
    intro h
    have hN : cfg0.N = 490 := N_0
    by_cases h0 : (n + 1) % 245 = 0
    · rw [outsAt0_A m c ⟨n + 1, h⟩ h0, out_A,
        acc_apply (gp m c) (kp m c) ((n + 1) * 8192) _ _ (fun e => xblk_apply m c ⟨n + 1, h⟩ e)
          (fun e => kblk_apply m c ⟨n + 1, h⟩ e) _ hi lo _ le_rfl, pay1_apply, zero_add, trips16, h0]
      have e5 : 16 * 512 = (0 + 1) * 8192 := by norm_num
      rw [e5, Nat.sub_zero]
    · rw [outsAt0_B m c ⟨n + 1, h⟩ h0, out_B,
        acc_apply (gp m c) (kp m c) ((n + 1) * 8192) _ _ (fun e => xblk_apply m c ⟨n + 1, h⟩ e)
          (fun e => kblk_apply m c ⟨n + 1, h⟩ e) _ hi lo _ le_rfl, trips16]
      show (outsAt0 m c n _ (ix3 (0 : Fin 1) hi lo) : EReal) + _ = _
      rw [ih (Nat.lt_of_succ_lt h)]
      have e1 : (n + 1) % 245 = n % 245 + 1 := by omega
      have e2 : n + 1 - (n + 1) % 245 = n - n % 245 := by omega
      have e3 : (n + 1) * 8192 = (n - n % 245) * 8192 + (n % 245 + 1) * 8192 := by
        have : n % 245 ≤ n := Nat.mod_le _ _
        omega
      have e4 : (n % 245 + 1) * 8192 + 16 * 512 = (n % 245 + 1 + 1) * 8192 := by ring
      rw [e2, e1, e3, ← stretch_add, e4]

end Cert.KernelIdeal.Hist

end
-- ==== Proof.KFinal.lean ====
/-
  The kernel's result array [2, 136, 128] after the launch: core `p`'s [136, 128] table is written back once, after
  the core's last grid point `245 p + 244`, so the array at (p, hi, lo) is what that point left in the block at (0, hi, lo).
-/
import proofs.«428178_j65979287601801_3_alg».proof.Proof.Gen.KernelIdeal.Frame
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Cert.KernelIdeal Cert.KernelIdeal.Gen
open Idealize.ShloMosaic.Pipeline (Dat)

namespace Cert.KernelIdeal.Hist

variable {F : FTy → Type} [FloatOps F]
variable (m : (ℓ : Loc nD τ sig) → Buf (Elt F) ℓ)

/-- The result array after the launch. -/
def arr2 (c : Dev nD) : FVec F S2x136x128 .f32 := (dats m 0 c).arrAt 2 cfg0.N

theorem last_lt (p : Fin 2) : p.val * 245 + 244 < cfg0.N := by
  have hN : cfg0.N = 490 := N_0
  have := p.isLt
  omega

/-- Core `p`'s table after its last point, read at (hi, lo). -/
def tab (c : Dev nD) (p : Fin 2) (hi : Fin 136) (lo : Fin 128) : Elt F .f32 :=
  (outsAt0 m c (p.val * 245 + 244) (last_lt p) : Vec F S1x136x128 .f32) (ix3 (0 : Fin 1) hi lo)

/-- The whole array assembled from the two tables. -/
def G (c : Dev nD) : Vec F S2x136x128 .f32 :=
  fun j => tab m c ⟨(j 0).val, (j 0).isLt⟩ ⟨(j 1).val, (j 1).isLt⟩ ⟨(j 2).val, (j 2).isLt⟩

/-- `G` at an index of core `(j 0)` is the block left by any point equal to that core's last one, read at any block
    index with the same two trailing coordinates. -/
theorem G_apply (c : Dev nD) (j : S2x136x128.Idx) (n : ℕ) (hn : n < cfg0.N) (hnj : n = (j 0).val * 245 + 244)
    (z : S1x136x128.Idx) (hz1 : (z 1).val = (j 1).val) (hz2 : (z 2).val = (j 2).val) :
    G m c j = (outsAt0 m c n hn : Vec F S1x136x128 .f32) z := by
  subst hnj
  show (outsAt0 m c _ _ : Vec F S1x136x128 .f32) (ix3 (0 : Fin 1) _ _) = _
  congr 1
  funext a
  match a with
  | ⟨0, _⟩ => exact Fin.ext (by have : (z 0).val < 1 := (z 0).isLt; show 0 = (z 0).val; omega)
  | ⟨1, _⟩ => exact Fin.ext hz1.symm
  | ⟨2, _⟩ => exact Fin.ext hz2.symm

theorem index0 : ∀ t : Fin cfg0.N, win0_2.index t 0 = t.val / 245 :=
  (by decide +kernel : ∀ t : Fin grid0.N, win0_2.index t 0 = t.val / 245)
theorem index1 : ∀ t : Fin cfg0.N, win0_2.index t 1 = 0 :=
  (by decide +kernel : ∀ t : Fin grid0.N, win0_2.index t 1 = 0)
theorem index2 : ∀ t : Fin cfg0.N, win0_2.index t 2 = 0 :=
  (by decide +kernel : ∀ t : Fin grid0.N, win0_2.index t 2 = 0)

theorem flushed_eq (c : Dev nD) (t : Fin cfg0.N) (hf : (cfg0.win 2).flush t = true) :
    (dats m 0 c).flushed 2 t = ((cfg0.win 2).blk t).view.read (Elt F) (G m c) := by
  have hN : cfg0.N = 490 := N_0
  have h244 : t.val % 245 = 244 := (flush0_2 t).mp hf
  show (cfg0.win 2).cut (grid0.coords t) ((dats m 0 c).after 2 t) = _
  rw [after0_2]
  funext y
  rw [View.read_apply]
  show (outsAt0 m c t.val t.isLt : Vec F S1x136x128 .f32) (win0_2.xinj (grid0.coords t) y) = G m c ((win0_2.blk t).view.emb y)
  have hy0 : (y 0).val < 1 := (y 0).isLt
  have e0 : ((win0_2.blk t).view.emb y 0 : ℕ) = win0_2.index t 0 * 1 + 1 * (y 0).val := rfl
  have e1 : ((win0_2.blk t).view.emb y 1 : ℕ) = win0_2.index t 1 * 136 + 1 * (y 1).val := rfl
  have e2 : ((win0_2.blk t).view.emb y 2 : ℕ) = win0_2.index t 2 * 128 + 1 * (y 2).val := rfl
  rw [index0] at e0; rw [index1] at e1; rw [index2] at e2
  refine (G_apply m c _ t.val t.isLt ?_ _ ?_ ?_).symm
  · rw [e0]; omega
  · rw [e1]; show (y 1).val = _; omega
  · rw [e2]; show (y 2).val = _; omega

theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 490 := N_0
  have h0 : (i 0 : Nat) < 2 := (i 0).isLt
  have h1 : (i 1 : Nat) < 136 := (i 1).isLt
  have h2 : (i 2 : Nat) < 128 := (i 2).isLt
  have ht : (i 0 : Nat) * 245 + 244 < cfg0.N := by omega
  refine ⟨⟨(i 0 : Nat) * 245 + 244, ht⟩, (flush0_2 _).mpr (by show ((i 0 : Nat) * 245 + 244) % 245 = 244; omega), ?_⟩
  show i ∈ ((View.whole main_v44).slice (win0_2.rect ⟨(i 0 : Nat) * 245 + 244, ht⟩)).set
  rw [View.set_slice_whole, Rect.mem_set_unit]
  intro a
  match a with
  | ⟨0, _⟩ =>
    show win0_2.index ⟨(i 0 : Nat) * 245 + 244, ht⟩ 0 * 1 ≤ (i 0 : Nat) ∧ (i 0 : Nat) < win0_2.index ⟨(i 0 : Nat) * 245 + 244, ht⟩ 0 * 1 + 1
    rw [index0]; show ((i 0 : Nat) * 245 + 244) / 245 * 1 ≤ (i 0 : Nat) ∧ (i 0 : Nat) < ((i 0 : Nat) * 245 + 244) / 245 * 1 + 1
    omega
  | ⟨1, _⟩ =>
    show win0_2.index ⟨(i 0 : Nat) * 245 + 244, ht⟩ 1 * 136 ≤ (i 1 : Nat) ∧ (i 1 : Nat) < win0_2.index ⟨(i 0 : Nat) * 245 + 244, ht⟩ 1 * 136 + 136
    rw [index1]; omega
  | ⟨2, _⟩ =>
    show win0_2.index ⟨(i 0 : Nat) * 245 + 244, ht⟩ 2 * 128 ≤ (i 2 : Nat) ∧ (i 2 : Nat) < win0_2.index ⟨(i 0 : Nat) * 245 + 244, ht⟩ 2 * 128 + 128
    rw [index2]; omega

/-- Core `p`'s table is what its last grid point left. -/
theorem arr2_apply (c : Dev nD) (p : Fin 2) (hi : Fin 136) (lo : Fin 128) :
    arr2 m c (ix3 p hi lo) = (outsAt0 m c (p.val * 245 + 244) (last_lt p) : Vec F S1x136x128 .f32) (ix3 (0 : Fin 1) hi lo) := by
  have h := (dats m 0 c).arrAt_eq_of_cover 2 (G m c) (flushed_eq m c) (cover c)
  exact (congrFun h (ix3 p hi lo)).trans rfl

end Cert.KernelIdeal.Hist

end
-- ==== Proof.KRun.lean ====
/-
  The kernel program's run, read: its result is the closing combine `exp(bias) · Σ vals · s[rows] · s[cols]` of the
  per-cluster sums `s`, which @main takes from the kernel's result array by adding the two cores' tables, flattening
  [136, 128] to 17408 and keeping the first 16399.
-/
import proofs.«428178_j65979287601801_3_alg».proof.Proof.KFinal
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Cert.KernelIdeal Cert.KernelIdeal.Gen
open Idealize.ShloMosaic.Pipeline (Dat)

namespace Cert.KernelIdeal.Hist

variable {F : FTy → Type} [FloatOps F]

/-- The per-cluster sums from the result array: the two cores' tables added, flattened, the first 16399 kept. -/
def sOf (arr : FVec F S2x136x128 .f32) : FVec F S16399 .f32 :=
  extractStridedSlice S16399 ![0]
    (shapeCast S17408 (Host.reduceAdd arr (constant S_ .f32 0x00000000#32) reducesTo_S2x136x128_S136x128_d0 h_S_) shapeCasts_S136x128_S17408)
    slices_S17408_S16399_0

/-- At cluster 128·hi + lo: zero plus the two cores' entries. -/
theorem sOf_apply (arr : FVec Ideal S2x136x128 .f32) (hi : Fin 136) (lo : Fin 128) (h : 128 * hi.val + lo.val < 16399) :
    sOf (F := Ideal) arr (ix1 ⟨128 * hi.val + lo.val, h⟩)
      = (Ideal.ofBits .f32 0x00000000#32 : EReal) + ((arr (ix3 (0 : Fin 2) hi lo) : EReal) + (arr (ix3 (1 : Fin 2) hi lo) : EReal)) := by
  have hlt : 128 * hi.val + lo.val < 17408 := by have := hi.isLt; have := lo.isLt; omega
  unfold sOf
  refine (extractStridedSlice_apply ![0] _ slices_S17408_S16399_0 (ix1 ⟨128 * hi.val + lo.val, h⟩)
    (ix1 ⟨128 * hi.val + lo.val, hlt⟩) (fun a => ?_)).trans ?_
  · match a with
    | ⟨0, _⟩ => show 128 * hi.val + lo.val = 0 + (128 * hi.val + lo.val); omega
  refine (shapeCast_apply _ shapeCasts_S136x128_S17408 (ix1 ⟨128 * hi.val + lo.val, hlt⟩) (ix2 hi lo) ?_).trans ?_
  · rw [Shape.rowMajor_val_two, Shape.rowMajor_val_one]
    show hi.val * 128 + lo.val = 128 * hi.val + lo.val
    omega
  have hR : S2x136x128.Reduces [0] S136x128 := by decide
  have e : ∀ k : Fin 2, hR.lift (ix2 hi lo) k = ix3 k hi lo := fun k =>
    funext fun a => match a with
      | ⟨0, _⟩ => Fin.ext rfl
      | ⟨1, _⟩ => Fin.ext rfl
      | ⟨2, _⟩ => Fin.ext rfl
  show Ideal.hostReduceAdd reducesTo_S2x136x128_S136x128_d0 arr _ (ix2 hi lo) = _
  rw [Ideal.hostReduceAdd_single reducesTo_S2x136x128_S136x128_d0 hR]
  refine congrArg₂ (· + ·) rfl ?_
  refine (Fin.sum_univ_two _).trans ?_
  rw [e 0, e 1]

/-- The pair weights: for each of the 105 centroid pairs and then each of the 8192 consecutive point pairs, the
    exponential of minus the Euclidean distance between the two rows. -/
def vals (a0 : FVec F S15x8 .f32) (a1 : FVec F S16384x8 .f32) : FVec F S8297 .f32 :=
  concatenate S8297 0
    [⟨S105,
       (Host.exp
         (Host.negf
           (Host.sqrt
             (Host.reduceAdd
               (mulf
                 (subf
                   (Host.gather gather_S15x8_S105x1_S105x8_1_0_n_n_0_1_18 a0
                     (broadcastInDim S105x1 ![0] bcast_S105_S105x1_0
                       (select
                         (constantI S105 1 0#1)
                         (addi (fun i => lit0 (S105.rowMajor i)) (broadcastInDim S105 ![] bcast_S_S105 (constantI S_ 32 15#32)))
                         (fun i => lit0 (S105.rowMajor i)))))
                   (Host.gather gather_S15x8_S105x1_S105x8_1_0_n_n_0_1_18 a0
                     (broadcastInDim S105x1 ![0] bcast_S105_S105x1_0
                       (select
                         (constantI S105 1 0#1)
                         (addi (fun i => lit1 (S105.rowMajor i)) (broadcastInDim S105 ![] bcast_S_S105 (constantI S_ 32 15#32)))
                         (fun i => lit1 (S105.rowMajor i))))))
                 (subf
                   (Host.gather gather_S15x8_S105x1_S105x8_1_0_n_n_0_1_18 a0
                     (broadcastInDim S105x1 ![0] bcast_S105_S105x1_0
                       (select
                         (constantI S105 1 0#1)
                         (addi (fun i => lit0 (S105.rowMajor i)) (broadcastInDim S105 ![] bcast_S_S105 (constantI S_ 32 15#32)))
                         (fun i => lit0 (S105.rowMajor i)))))
                   (Host.gather gather_S15x8_S105x1_S105x8_1_0_n_n_0_1_18 a0
                     (broadcastInDim S105x1 ![0] bcast_S105_S105x1_0
                       (select
                         (constantI S105 1 0#1)
                         (addi (fun i => lit1 (S105.rowMajor i)) (broadcastInDim S105 ![] bcast_S_S105 (constantI S_ 32 15#32)))
                         (fun i => lit1 (S105.rowMajor i)))))))
               (constant S_ .f32 0x00000000#32) reducesTo_S105x8_S105_d1 h_S_))))⟩,
     ⟨S8192,
       (Host.exp
         (Host.negf
           (Host.sqrt
             (Host.reduceAdd
               (mulf
                 (subf
                   (shapeCast S8192x8
                     (extractStridedSlice S8192x1x8 ![0, 0, 0]
                       (shapeCast S8192x2x8 a1 shapeCasts_S16384x8_S8192x2x8) slices_S8192x2x8_S8192x1x8_0_0_0) shapeCasts_S8192x1x8_S8192x8)
                   (shapeCast S8192x8
                     (extractStridedSlice S8192x1x8 ![0, 1, 0]
                       (shapeCast S8192x2x8 a1 shapeCasts_S16384x8_S8192x2x8) slices_S8192x2x8_S8192x1x8_0_1_0) shapeCasts_S8192x1x8_S8192x8))
                 (subf
                   (shapeCast S8192x8
                     (extractStridedSlice S8192x1x8 ![0, 0, 0]
                       (shapeCast S8192x2x8 a1 shapeCasts_S16384x8_S8192x2x8) slices_S8192x2x8_S8192x1x8_0_0_0) shapeCasts_S8192x1x8_S8192x8)
                   (shapeCast S8192x8
                     (extractStridedSlice S8192x1x8 ![0, 1, 0]
                       (shapeCast S8192x2x8 a1 shapeCasts_S16384x8_S8192x2x8) slices_S8192x2x8_S8192x1x8_0_1_0) shapeCasts_S8192x1x8_S8192x8)))
               (constant S_ .f32 0x00000000#32) reducesTo_S8192x8_S8192_d1 h_S_))))⟩] concatenates_S105_S8192_S8297_d0

/-- The pairs' first cluster ids: the table's 105 entries, then `15 + 2 n` for `n < 8192`. -/
def rows : IVec S8297 32 :=
  concatenate S8297 0
    [⟨S105, (fun i => lit2 (S105.rowMajor i))⟩,
     ⟨S8192,
       (addi
         (broadcastInDim S8192 ![] bcast_S_S8192 (constantI S_ 32 15#32))
         (muli (broadcastInDim S8192 ![] bcast_S_S8192 (constantI S_ 32 2#32)) (iotaInDim S8192 32 0)))⟩] concatenates_S105_S8192_S8297_d0

/-- The pairs' second cluster ids: the table's 105 entries, then `15 + 2 n + 1` for `n < 8192`. -/
def cols : IVec S8297 32 :=
  concatenate S8297 0
    [⟨S105, (fun i => lit3 (S105.rowMajor i))⟩,
     ⟨S8192,
       (addi
         (addi
           (broadcastInDim S8192 ![] bcast_S_S8192 (constantI S_ 32 15#32))
           (muli (broadcastInDim S8192 ![] bcast_S_S8192 (constantI S_ 32 2#32)) (iotaInDim S8192 32 0)))
         (broadcastInDim S8192 ![] bcast_S_S8192 (constantI S_ 32 1#32)))⟩] concatenates_S105_S8192_S8297_d0

/-- Everything of @main but the per-cluster sums: the pair distances' exponentials, the row and column tables, and the
    closing combine, as one function of the centroids, the bias and the per-cluster sums `s`. -/
def tail (a0 : FVec F S15x8 .f32) (a1 : FVec F S16384x8 .f32) (a3 : FVec F S1 .f32) (s : FVec F S16399 .f32) : FVec F S_ .f32 :=
  mulf
    (shapeCast S_ (Host.exp a3) shapeCasts_S1_S_)
    (Host.reduceAdd
      (mulf
        (mulf
          (concatenate S8297 0
            [⟨S105,
               (Host.exp
                 (Host.negf
                   (Host.sqrt
                     (Host.reduceAdd
                       (mulf
                         (subf
                           (Host.gather gather_S15x8_S105x1_S105x8_1_0_n_n_0_1_18 a0
                             (broadcastInDim S105x1 ![0] bcast_S105_S105x1_0
                               (select
                                 (constantI S105 1 0#1)
                                 (addi (fun i => lit0 (S105.rowMajor i)) (broadcastInDim S105 ![] bcast_S_S105 (constantI S_ 32 15#32)))
                                 (fun i => lit0 (S105.rowMajor i)))))
                           (Host.gather gather_S15x8_S105x1_S105x8_1_0_n_n_0_1_18 a0
                             (broadcastInDim S105x1 ![0] bcast_S105_S105x1_0
                               (select
                                 (constantI S105 1 0#1)
                                 (addi (fun i => lit1 (S105.rowMajor i)) (broadcastInDim S105 ![] bcast_S_S105 (constantI S_ 32 15#32)))
                                 (fun i => lit1 (S105.rowMajor i))))))
                         (subf
                           (Host.gather gather_S15x8_S105x1_S105x8_1_0_n_n_0_1_18 a0
                             (broadcastInDim S105x1 ![0] bcast_S105_S105x1_0
                               (select
                                 (constantI S105 1 0#1)
                                 (addi (fun i => lit0 (S105.rowMajor i)) (broadcastInDim S105 ![] bcast_S_S105 (constantI S_ 32 15#32)))
                                 (fun i => lit0 (S105.rowMajor i)))))
                           (Host.gather gather_S15x8_S105x1_S105x8_1_0_n_n_0_1_18 a0
                             (broadcastInDim S105x1 ![0] bcast_S105_S105x1_0
                               (select
                                 (constantI S105 1 0#1)
                                 (addi (fun i => lit1 (S105.rowMajor i)) (broadcastInDim S105 ![] bcast_S_S105 (constantI S_ 32 15#32)))
                                 (fun i => lit1 (S105.rowMajor i)))))))
                       (constant S_ .f32 0x00000000#32) reducesTo_S105x8_S105_d1 h_S_))))⟩,
             ⟨S8192,
               (Host.exp
                 (Host.negf
                   (Host.sqrt
                     (Host.reduceAdd
                       (mulf
                         (subf
                           (shapeCast S8192x8
                             (extractStridedSlice S8192x1x8 ![0, 0, 0]
                               (shapeCast S8192x2x8 a1 shapeCasts_S16384x8_S8192x2x8) slices_S8192x2x8_S8192x1x8_0_0_0) shapeCasts_S8192x1x8_S8192x8)
                           (shapeCast S8192x8
                             (extractStridedSlice S8192x1x8 ![0, 1, 0]
                               (shapeCast S8192x2x8 a1 shapeCasts_S16384x8_S8192x2x8) slices_S8192x2x8_S8192x1x8_0_1_0) shapeCasts_S8192x1x8_S8192x8))
                         (subf
                           (shapeCast S8192x8
                             (extractStridedSlice S8192x1x8 ![0, 0, 0]
                               (shapeCast S8192x2x8 a1 shapeCasts_S16384x8_S8192x2x8) slices_S8192x2x8_S8192x1x8_0_0_0) shapeCasts_S8192x1x8_S8192x8)
                           (shapeCast S8192x8
                             (extractStridedSlice S8192x1x8 ![0, 1, 0]
                               (shapeCast S8192x2x8 a1 shapeCasts_S16384x8_S8192x2x8) slices_S8192x2x8_S8192x1x8_0_1_0) shapeCasts_S8192x1x8_S8192x8)))
                       (constant S_ .f32 0x00000000#32) reducesTo_S8192x8_S8192_d1 h_S_))))⟩] concatenates_S105_S8192_S8297_d0)
          (Host.gather gather_S16399_S8297x1_S8297_n_0_n_n_0_1_1 s
            (broadcastInDim S8297x1 ![0] bcast_S8297_S8297x1_0
              (select
                (cmpi .slt
                  (concatenate S8297 0
                    [⟨S105, (fun i => lit2 (S105.rowMajor i))⟩,
                     ⟨S8192,
                       (addi
                         (broadcastInDim S8192 ![] bcast_S_S8192 (constantI S_ 32 15#32))
                         (muli (broadcastInDim S8192 ![] bcast_S_S8192 (constantI S_ 32 2#32)) (iotaInDim S8192 32 0)))⟩] concatenates_S105_S8192_S8297_d0)
                  (broadcastInDim S8297 ![] bcast_S_S8297 (constantI S_ 32 0#32)))
                (addi
                  (concatenate S8297 0
                    [⟨S105, (fun i => lit2 (S105.rowMajor i))⟩,
                     ⟨S8192,
                       (addi
                         (broadcastInDim S8192 ![] bcast_S_S8192 (constantI S_ 32 15#32))
                         (muli (broadcastInDim S8192 ![] bcast_S_S8192 (constantI S_ 32 2#32)) (iotaInDim S8192 32 0)))⟩] concatenates_S105_S8192_S8297_d0)
                  (broadcastInDim S8297 ![] bcast_S_S8297 (constantI S_ 32 16399#32)))
                (concatenate S8297 0
                  [⟨S105, (fun i => lit2 (S105.rowMajor i))⟩,
                   ⟨S8192,
                     (addi
                       (broadcastInDim S8192 ![] bcast_S_S8192 (constantI S_ 32 15#32))
                       (muli (broadcastInDim S8192 ![] bcast_S_S8192 (constantI S_ 32 2#32)) (iotaInDim S8192 32 0)))⟩] concatenates_S105_S8192_S8297_d0)))))
        (Host.gather gather_S16399_S8297x1_S8297_n_0_n_n_0_1_1 s
          (broadcastInDim S8297x1 ![0] bcast_S8297_S8297x1_0
            (select
              (cmpi .slt
                (concatenate S8297 0
                  [⟨S105, (fun i => lit3 (S105.rowMajor i))⟩,
                   ⟨S8192,
                     (addi
                       (addi
                         (broadcastInDim S8192 ![] bcast_S_S8192 (constantI S_ 32 15#32))
                         (muli (broadcastInDim S8192 ![] bcast_S_S8192 (constantI S_ 32 2#32)) (iotaInDim S8192 32 0)))
                       (broadcastInDim S8192 ![] bcast_S_S8192 (constantI S_ 32 1#32)))⟩] concatenates_S105_S8192_S8297_d0)
                (broadcastInDim S8297 ![] bcast_S_S8297 (constantI S_ 32 0#32)))
              (addi
                (concatenate S8297 0
                  [⟨S105, (fun i => lit3 (S105.rowMajor i))⟩,
                   ⟨S8192,
                     (addi
                       (addi
                         (broadcastInDim S8192 ![] bcast_S_S8192 (constantI S_ 32 15#32))
                         (muli (broadcastInDim S8192 ![] bcast_S_S8192 (constantI S_ 32 2#32)) (iotaInDim S8192 32 0)))
                       (broadcastInDim S8192 ![] bcast_S_S8192 (constantI S_ 32 1#32)))⟩] concatenates_S105_S8192_S8297_d0)
                (broadcastInDim S8297 ![] bcast_S_S8297 (constantI S_ 32 16399#32)))
              (concatenate S8297 0
                [⟨S105, (fun i => lit3 (S105.rowMajor i))⟩,
                 ⟨S8192,
                   (addi
                     (addi
                       (broadcastInDim S8192 ![] bcast_S_S8192 (constantI S_ 32 15#32))
                       (muli (broadcastInDim S8192 ![] bcast_S_S8192 (constantI S_ 32 2#32)) (iotaInDim S8192 32 0)))
                     (broadcastInDim S8192 ![] bcast_S_S8192 (constantI S_ 32 1#32)))⟩] concatenates_S105_S8192_S8297_d0)))))
      (constant S_ .f32 0x00000000#32) reducesTo_S8297_S_d0 h_S_)

set_option maxHeartbeats 8000000 in
/-- The cluster-id tables are written before the launch by lines that read no argument. -/
theorem V_rows (m : (ℓ : Loc nD τ sig) → Buf (Elt F) ℓ) (c : Dev nD) : (V m c main_v33 : S8297.Idx → Elt F .i32) = rows := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results
  rfl

set_option maxHeartbeats 8000000 in
theorem V_cols (m : (ℓ : Loc nD τ sig) → Buf (Elt F) ℓ) (c : Dev nD) : (V m c main_v40 : S8297.Idx → Elt F .i32) = cols := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results
  rfl

set_option maxHeartbeats 8000000 in
/-- The pair weights are written before the launch from the two centroid arrays. -/
theorem V_vals (m : (ℓ : Loc nD τ sig) → Buf (Elt F) ℓ) (c : Dev nD) :
    (V m c main_v27 : S8297.Idx → Elt F .f32) = vals (m ((c.tc : Thread nD τ).loc main_arg0)) (m ((c.tc : Thread nD τ).loc main_arg1)) := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results
  rfl

set_option maxHeartbeats 8000000 in
/-- The lines after the launch, read at the result: they read the kernel's result array, the three tables written before
    the launch, and the bias. -/
theorem tail_result (m : (ℓ : Loc nD τ sig) → Buf (Elt F) ℓ) (c : Dev nD) :
    Pipeline.afterTail₀ cfgs (dats m) 0 (V0 m) [hostOps1] c main_v67
      = tail (m ((c.tc : Thread nD τ).loc main_arg0)) (m ((c.tc : Thread nD τ).loc main_arg1))
          (m ((c.tc : Thread nD τ).loc main_arg3)) (sOf (arr2 m c)) := by
  unfold Pipeline.afterTail₀
  show StableHlo.after hostOps1 (Pipeline.withArrays spec0 c (V0 m c) fun w => (dats m 0 c).arrAt w cfg0.N) (Proc.devRef .tc main_v67) = _
  have h44 : Pipeline.withArrays spec0 c (V0 m c) (fun w => (dats m 0 c).arrAt w cfg0.N) (Proc.devRef .tc main_v44) = arr2 m c :=
    Pipeline.withArrays_arr spec0 launch0.win.arr_inj c _ _ 2
  have h27 : Pipeline.withArrays spec0 c (V0 m c) (fun w => (dats m 0 c).arrAt w cfg0.N) (Proc.devRef .tc main_v27)
      = vals (m ((c.tc : Thread nD τ).loc main_arg0)) (m ((c.tc : Thread nD τ).loc main_arg1)) :=
    (Pipeline.withArrays_of_ne _ c (V0 m c) _ main_v27 (by decide : ∀ w, Pipeline.arrRef spec0 w ≠ main_v27)).trans (V_vals m c)
  have h33 : Pipeline.withArrays spec0 c (V0 m c) (fun w => (dats m 0 c).arrAt w cfg0.N) (Proc.devRef .tc main_v33) = rows :=
    (Pipeline.withArrays_of_ne _ c (V0 m c) _ main_v33 (by decide : ∀ w, Pipeline.arrRef spec0 w ≠ main_v33)).trans (V_rows m c)
  have h40 : Pipeline.withArrays spec0 c (V0 m c) (fun w => (dats m 0 c).arrAt w cfg0.N) (Proc.devRef .tc main_v40) = cols :=
    (Pipeline.withArrays_of_ne _ c (V0 m c) _ main_v40 (by decide : ∀ w, Pipeline.arrRef spec0 w ≠ main_v40)).trans (V_cols m c)
  have h3 : Pipeline.withArrays spec0 c (V0 m c) (fun w => (dats m 0 c).arrAt w cfg0.N) (Proc.devRef .tc main_arg3)
      = (m ((c.tc : Thread nD τ).loc main_arg3)) :=
    (Pipeline.withArrays_of_ne _ c (V0 m c) _ main_arg3 (by decide : ∀ w, Pipeline.arrRef spec0 w ≠ main_arg3)).trans (V_main_arg3 m c)
  generalize Pipeline.withArrays spec0 c (V0 m c) (fun w => (dats m 0 c).arrAt w cfg0.N) = W at h44 h27 h33 h40 h3 ⊢
  after_results
  rw [h44, h27, h33, h40, h3]
  rfl

/-- The run: the result buffer at the combine of the per-cluster sums read off the result array; the arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v67)
          = tail (m ((c.tc : Thread nD τ).loc main_arg0)) (m ((c.tc : Thread nD τ).loc main_arg1))
              (m ((c.tc : Thread nD τ).loc main_arg3)) (sOf (arr2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v67 (Pipeline.mem_restRefs_of main_v67 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Hist

end
-- ==== Proof.RefSeg.lean ====
/-
  The reference's segment sums: a scatter-add of `exp gamma`, gathered at the node ids, into the cluster ids.
  Read at a cluster `i`: the sum over the entries whose cluster id, read as a signed integer, is `i`, of `exp`
  of `gamma` at the entry's node id. Negative node ids are wrapped by the reference before the gather; where
  every node id is non-negative the wrap does nothing and the gather reads at the (clamped) node id itself.
-/
import proofs.«428178_j65979287601801_3_alg».proof.Proof.Gen.ReferenceIdeal
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.TcCoe Idealize.SL.Sem Idealize.ShloMosaic.ValueIdx
open Cert.ReferenceIdeal Cert.ReferenceIdeal.Gen

namespace Cert.ReferenceIdeal.RefValue

variable {F : FTy → Type} [FloatOps F]

/-- The segment sums as @main computes them (its statements 41 to 51): from `gamma`, the cluster ids and the node ids. -/
def seg (a2 : FVec F S4000000 .f32) (a4 a5 : IVec S4000000 32) : FVec F S16399 .f32 :=
  Host.scatterAdd scatter_S16399_S4000000x1_S4000000_n_0_0_1
    (broadcastInDim S16399 ![] bcast_S_S16399 (constant S_ .f32 0x00000000#32))
    (broadcastInDim S4000000x1 ![0] bcast_S4000000_S4000000x1_0 a4)
    (Host.gather gather_S4000000_S4000000x1_S4000000_n_0_n_n_0_1_1 (Host.exp a2)
      (broadcastInDim S4000000x1 ![0] bcast_S4000000_S4000000x1_0
        (select (cmpi .slt a5 (broadcastInDim S4000000 ![] bcast_S_S4000000 (constantI S_ 32 0#32)))
          (addi a5 (broadcastInDim S4000000 ![] bcast_S_S4000000 (constantI S_ 32 4000000#32))) a5)))

/-- The scatter-add read at cluster `i`, for any operand, indices and updates: the operand's element plus the sum,
    over the entries, of the update of each entry that lands at `i`. The sum over the rank-one update indices is
    carried to a sum over the entries' numbers. -/
theorem scatter_read (x : FVec Ideal S16399 .f32) (idx : IVec S4000000x1 32) (upd : FVec Ideal S4000000 .f32)
    (i : Fin 16399) :
    Host.scatterAdd scatter_S16399_S4000000x1_S4000000_n_0_0_1 x idx upd (ix1 i)
      = (x (ix1 i) : EReal) + ∑ n : Fin 4000000,
          (if scatter_S16399_S4000000x1_S4000000_n_0_0_1.resultIdx? (ix1 n) idx = some (ix1 i)
            then (upd (ix1 n) : EReal) else 0) := by
  show Ideal.hostScatterAdd scatter_S16399_S4000000x1_S4000000_n_0_0_1 x idx upd (ix1 i) = _
  unfold Ideal.hostScatterAdd
  rw [Finset.sum_filter]
  let e : Fin 4000000 ≃ S4000000.Idx :=
    ⟨fun n => ix1 n, fun j => j 0, fun n => rfl, fun j => (eq_ix1 j).symm⟩
  rw [← Equiv.sum_comp e]
  rfl

/-- With every node id non-negative the reference's wrap of negative ids picks the id itself:
    the signed comparison with zero is false at every entry. -/
theorem wrap_id (a5 : IVec S4000000 32) (h5 : ∀ j, 0 ≤ (a5 j).toInt) :
    select (cmpi .slt a5 (broadcastInDim S4000000 ![] bcast_S_S4000000 (constantI S_ 32 0#32)))
          (addi a5 (broadcastInDim S4000000 ![] bcast_S_S4000000 (constantI S_ 32 4000000#32))) a5 = a5 := by
  funext j
  rw [select_apply]
  have hc : cmpi .slt a5 (broadcastInDim S4000000 ![] bcast_S_S4000000 (constantI S_ 32 0#32)) j = 0#1 := by
    show IntOp.cmpi .slt (a5 j) (0#32) = 0#1
    have h := h5 j
    have h0 : (0#32 : BitVec 32).toInt = 0 := by decide
    simp only [IntOp.cmpi, BitVec.slt]
    rw [h0, decide_eq_false (not_lt.mpr h)]
    rfl
  rw [hc, select_zero]

/-- The gather commutes with the pointwise exponential: it only moves elements. -/
theorem gather_exp (a2 : FVec Ideal S4000000 .f32) (idx : IVec S4000000x1 32) (j : S4000000.Idx) :
    Host.gather gather_S4000000_S4000000x1_S4000000_n_0_n_n_0_1_1 (Host.exp a2) idx j
      = Ideal.exp (Host.gather gather_S4000000_S4000000x1_S4000000_n_0_n_n_0_1_1 a2 idx j) := rfl

/-- A vector broadcast to one column, read at `(r, 0)`, is the vector at `r`. -/
theorem bcast_row {α : Type} (a : S4000000.Idx → α) (y : S4000000x1.Idx) :
    broadcastInDim S4000000x1 ![0] bcast_S4000000_S4000000x1_0 a y = a (ix1 (y 0)) := by
  unfold broadcastInDim
  congr 1
  funext b
  obtain rfl : b = 0 := Subsingleton.elim _ _
  rfl

/-- The scatter's start on the one operand axis, for update `n`: the cluster id of entry `n`, read signed. -/
theorem start_eq (a4 : IVec S4000000 32) (n : Fin 4000000) :
    scatter_S16399_S4000000x1_S4000000_n_0_0_1.start (ix1 n)
        (broadcastInDim S4000000x1 ![0] bcast_S4000000_S4000000x1_0 a4) (0 : Fin 1) = (a4 (ix1 n)).toInt := by
  unfold ScatterDims.start
  rw [dif_pos (show (0 : Fin 1) ∈ scatter_S16399_S4000000x1_S4000000_n_0_0_1.scatterDimsToOperandDims
    from List.mem_singleton.mpr rfl)]
  rw [bcast_row]
  congr 2

/-- The one operand axis is an inserted window axis: the window coordinate on it is zero. -/
theorem window_eq (n : Fin 4000000) :
    scatter_S16399_S4000000x1_S4000000_n_0_0_1.window (ix1 n) (0 : Fin 1) = 0 := by
  unfold ScatterDims.window
  rw [dif_neg (by decide)]

/-- Update `n` lands at cluster `i` exactly when entry `n`'s cluster id, read as a signed integer, is `i`
    (an id outside `[0, 16399)` lands nowhere). -/
theorem resultIdx_iff (a4 : IVec S4000000 32) (n : Fin 4000000) (i : Fin 16399) :
    scatter_S16399_S4000000x1_S4000000_n_0_0_1.resultIdx? (ix1 n)
        (broadcastInDim S4000000x1 ![0] bcast_S4000000_S4000000x1_0 a4) = some (ix1 i)
      ↔ (a4 (ix1 n)).toInt = (i.val : ℤ) := by
  have hi := i.isLt
  unfold ScatterDims.resultIdx?
  split_ifs with h
  · rw [Option.some_inj]
    constructor
    · intro he
      have h1 : (scatter_S16399_S4000000x1_S4000000_n_0_0_1.start (ix1 n)
        (broadcastInDim S4000000x1 ![0] bcast_S4000000_S4000000x1_0 a4) (0 : Fin 1)
          + (scatter_S16399_S4000000x1_S4000000_n_0_0_1.window (ix1 n) (0 : Fin 1) : ℕ)).toNat = i.val :=
        congrArg (fun f => (f 0).val) he
      have h0 := (h 0).1
      rw [start_eq, window_eq] at h1 h0
      omega
    · intro he
      funext a
      obtain rfl : a = 0 := Subsingleton.elim _ _
      refine Fin.ext ?_
      show (scatter_S16399_S4000000x1_S4000000_n_0_0_1.start (ix1 n)
        (broadcastInDim S4000000x1 ![0] bcast_S4000000_S4000000x1_0 a4) (0 : Fin 1)
          + (scatter_S16399_S4000000x1_S4000000_n_0_0_1.window (ix1 n) (0 : Fin 1) : ℕ)).toNat = i.val
      rw [start_eq, window_eq, he]
      simp
  · constructor
    · intro he
      exact absurd he (by simp)
    · intro he
      exfalso
      apply h
      intro a
      obtain rfl : a = 0 := Subsingleton.elim _ _
      rw [start_eq, window_eq, he]
      show (0 : ℤ) ≤ (i.val : ℤ) + ((0 : ℕ) : ℤ) ∧ (i.val : ℤ) + ((0 : ℕ) : ℤ) < ((16399 : ℕ) : ℤ)
      constructor <;> omega

/-- The segment sums are the scatter-add of the gathered exponentials into a zero operand: the definition, restated. -/
theorem seg_def (a2 : FVec F S4000000 .f32) (a4 a5 : IVec S4000000 32) :
    seg a2 a4 a5
      = Host.scatterAdd scatter_S16399_S4000000x1_S4000000_n_0_0_1
          (broadcastInDim S16399 ![] bcast_S_S16399 (constant S_ .f32 0x00000000#32))
          (broadcastInDim S4000000x1 ![0] bcast_S4000000_S4000000x1_0 a4)
          (Host.gather gather_S4000000_S4000000x1_S4000000_n_0_n_n_0_1_1 (Host.exp a2)
            (broadcastInDim S4000000x1 ![0] bcast_S4000000_S4000000x1_0
              (select (cmpi .slt a5 (broadcastInDim S4000000 ![] bcast_S_S4000000 (constantI S_ 32 0#32)))
                (addi a5 (broadcastInDim S4000000 ![] bcast_S_S4000000 (constantI S_ 32 4000000#32))) a5))) := rfl

/-- The scatter's operand is zero at every cluster. -/
theorem operand_zero (i : Fin 16399) :
    broadcastInDim S16399 ![] bcast_S_S16399 (constant (F := Ideal) S_ .f32 0x00000000#32) (ix1 i)
      = (0 : EReal) := by
  show Ideal.ofBits .f32 0x00000000#32 = 0
  exact Ideal.ofBits_zero_f32

/-- At cluster `i`, with every node id non-negative. -/
theorem seg_apply (a2 : FVec Ideal S4000000 .f32) (a4 a5 : IVec S4000000 32) (h5 : ∀ j, 0 ≤ (a5 j).toInt)
    (i : Fin 16399) :
    seg (F := Ideal) a2 a4 a5 (ix1 i)
      = ∑ n : Fin 4000000, (if (a4 (ix1 n)).toInt = (i.val : ℤ)
          then Ideal.exp (Host.gather gather_S4000000_S4000000x1_S4000000_n_0_n_n_0_1_1 a2
                (broadcastInDim S4000000x1 ![0] bcast_S4000000_S4000000x1_0 a5) (ix1 n) : EReal)
          else 0) := by
  rw [seg_def, wrap_id a5 h5, scatter_read, operand_zero, zero_add]
  refine Finset.sum_congr rfl fun n _ => ?_
  rw [gather_exp]
  by_cases hc : (a4 (ix1 n)).toInt = (i.val : ℤ)
  · rw [if_pos hc, if_pos ((resultIdx_iff a4 n i).mpr hc)]
  · rw [if_neg hc, if_neg (fun he => hc ((resultIdx_iff a4 n i).mp he))]

end Cert.ReferenceIdeal.RefValue

end
-- ==== Proof.RefRun.lean ====
/-
  The reference program's run, read: its result is the closing combine `exp(bias) · Σ vals · s[rows] · s[cols]` of the
  per-cluster sums `s` it computes by a scatter-add (`RefValue.seg`); its arguments end unchanged.
-/
import proofs.«428178_j65979287601801_3_alg».proof.Proof.RefSeg
import Idealize.ShloMosaic.Lib.StableHlo.Run
import Idealize.ShloMosaic.Lib.Tactic

noncomputable section

open Idealize.ShloMosaic Idealize.ShloMosaic.TcCoe Idealize.SL.Sem Idealize.ShloMosaic.ValueIdx
open Cert.ReferenceIdeal Cert.ReferenceIdeal.Gen Idealize.ShloMosaic.StableHlo

namespace Cert.ReferenceIdeal.RefValue

variable {F : FTy → Type} [FloatOps F]

/-- Everything of @main but the per-cluster sums: the pair distances' exponentials, the row and column tables, and the
    closing combine, as one function of the centroids, the bias and the per-cluster sums `s`.

    Read from the inside out. The values: the 105 centroid pairs `(lit0 k, lit1 k)` give `exp (-‖a0 row − a0 row'‖)`
    (both row tables are already non-negative, so the wrap `select … (· + 15) ·` under the all-false mask leaves them),
    the 8192 consecutive row pairs `(2n, 2n+1)` of `a1` give `exp (-‖a1 (2n) − a1 (2n+1)‖)`; the two are laid end to
    end (8297 values). The row ids are `lit2` then `15 + 2n`, the column ids `lit3` then `15 + 2n + 1`; a negative id
    would be wrapped by 16399 before `s` is read there. The result is `exp bias` times the sum over the 8297 entries of
    value · `s` at the row id · `s` at the column id. -/
def tail (a0 : FVec F S15x8 .f32) (a1 : FVec F S16384x8 .f32) (a3 : FVec F S1 .f32) (s : FVec F S16399 .f32) : FVec F S_ .f32 :=
  mulf
    (shapeCast S_ (Host.exp a3) shapeCasts_S1_S_)
    (Host.reduceAdd
      (mulf
        (mulf
          (concatenate S8297 0
            [⟨S105,
                Host.exp
                  (Host.negf
                    (Host.sqrt
                      (Host.reduceAdd
                        (mulf
                          (subf
                            (Host.gather gather_S15x8_S105x1_S105x8_1_0_n_n_0_1_18 a0
                              (broadcastInDim S105x1 ![0] bcast_S105_S105x1_0
                                (select
                                  (constantI S105 1 0#1)
                                  (addi
                                    (fun i => lit0 (S105.rowMajor i))
                                    (broadcastInDim S105 ![] bcast_S_S105 (constantI S_ 32 15#32)))
                                  (fun i => lit0 (S105.rowMajor i)))))
                            (Host.gather gather_S15x8_S105x1_S105x8_1_0_n_n_0_1_18 a0
                              (broadcastInDim S105x1 ![0] bcast_S105_S105x1_0
                                (select
                                  (constantI S105 1 0#1)
                                  (addi
                                    (fun i => lit1 (S105.rowMajor i))
                                    (broadcastInDim S105 ![] bcast_S_S105 (constantI S_ 32 15#32)))
                                  (fun i => lit1 (S105.rowMajor i))))))
                          (subf
                            (Host.gather gather_S15x8_S105x1_S105x8_1_0_n_n_0_1_18 a0
                              (broadcastInDim S105x1 ![0] bcast_S105_S105x1_0
                                (select
                                  (constantI S105 1 0#1)
                                  (addi
                                    (fun i => lit0 (S105.rowMajor i))
                                    (broadcastInDim S105 ![] bcast_S_S105 (constantI S_ 32 15#32)))
                                  (fun i => lit0 (S105.rowMajor i)))))
                            (Host.gather gather_S15x8_S105x1_S105x8_1_0_n_n_0_1_18 a0
                              (broadcastInDim S105x1 ![0] bcast_S105_S105x1_0
                                (select
                                  (constantI S105 1 0#1)
                                  (addi
                                    (fun i => lit1 (S105.rowMajor i))
                                    (broadcastInDim S105 ![] bcast_S_S105 (constantI S_ 32 15#32)))
                                  (fun i => lit1 (S105.rowMajor i)))))))
                        (constant S_ .f32 0x00000000#32) reducesTo_S105x8_S105_d1 h_S_)))⟩,
             ⟨S8192,
                Host.exp
                  (Host.negf
                    (Host.sqrt
                      (Host.reduceAdd
                        (mulf
                          (subf
                            (shapeCast S8192x8
                              (extractStridedSlice S8192x1x8 ![0, 0, 0]
                                (shapeCast S8192x2x8 a1 shapeCasts_S16384x8_S8192x2x8) slices_S8192x2x8_S8192x1x8_0_0_0) shapeCasts_S8192x1x8_S8192x8)
                            (shapeCast S8192x8
                              (extractStridedSlice S8192x1x8 ![0, 1, 0]
                                (shapeCast S8192x2x8 a1 shapeCasts_S16384x8_S8192x2x8) slices_S8192x2x8_S8192x1x8_0_1_0) shapeCasts_S8192x1x8_S8192x8))
                          (subf
                            (shapeCast S8192x8
                              (extractStridedSlice S8192x1x8 ![0, 0, 0]
                                (shapeCast S8192x2x8 a1 shapeCasts_S16384x8_S8192x2x8) slices_S8192x2x8_S8192x1x8_0_0_0) shapeCasts_S8192x1x8_S8192x8)
                            (shapeCast S8192x8
                              (extractStridedSlice S8192x1x8 ![0, 1, 0]
                                (shapeCast S8192x2x8 a1 shapeCasts_S16384x8_S8192x2x8) slices_S8192x2x8_S8192x1x8_0_1_0) shapeCasts_S8192x1x8_S8192x8)))
                        (constant S_ .f32 0x00000000#32) reducesTo_S8192x8_S8192_d1 h_S_)))⟩]
            concatenates_S105_S8192_S8297_d0)
          (Host.gather gather_S16399_S8297x1_S8297_n_0_n_n_0_1_1 s
            (broadcastInDim S8297x1 ![0] bcast_S8297_S8297x1_0
              (select
                (cmpi .slt
                  (concatenate S8297 0
                    [⟨S105,
                        fun i => lit2 (S105.rowMajor i)⟩,
                     ⟨S8192,
                        addi
                          (broadcastInDim S8192 ![] bcast_S_S8192 (constantI S_ 32 15#32))
                          (muli
                            (broadcastInDim S8192 ![] bcast_S_S8192 (constantI S_ 32 2#32))
                            (iotaInDim S8192 32 0))⟩]
                    concatenates_S105_S8192_S8297_d0)
                  (broadcastInDim S8297 ![] bcast_S_S8297 (constantI S_ 32 0#32)))
                (addi
                  (concatenate S8297 0
                    [⟨S105,
                        fun i => lit2 (S105.rowMajor i)⟩,
                     ⟨S8192,
                        addi
                          (broadcastInDim S8192 ![] bcast_S_S8192 (constantI S_ 32 15#32))
                          (muli
                            (broadcastInDim S8192 ![] bcast_S_S8192 (constantI S_ 32 2#32))
                            (iotaInDim S8192 32 0))⟩]
                    concatenates_S105_S8192_S8297_d0)
                  (broadcastInDim S8297 ![] bcast_S_S8297 (constantI S_ 32 16399#32)))
                (concatenate S8297 0
                  [⟨S105,
                      fun i => lit2 (S105.rowMajor i)⟩,
                   ⟨S8192,
                      addi
                        (broadcastInDim S8192 ![] bcast_S_S8192 (constantI S_ 32 15#32))
                        (muli (broadcastInDim S8192 ![] bcast_S_S8192 (constantI S_ 32 2#32)) (iotaInDim S8192 32 0))⟩]
                  concatenates_S105_S8192_S8297_d0)))))
        (Host.gather gather_S16399_S8297x1_S8297_n_0_n_n_0_1_1 s
          (broadcastInDim S8297x1 ![0] bcast_S8297_S8297x1_0
            (select
              (cmpi .slt
                (concatenate S8297 0
                  [⟨S105,
                      fun i => lit3 (S105.rowMajor i)⟩,
                   ⟨S8192,
                      addi
                        (addi
                          (broadcastInDim S8192 ![] bcast_S_S8192 (constantI S_ 32 15#32))
                          (muli
                            (broadcastInDim S8192 ![] bcast_S_S8192 (constantI S_ 32 2#32))
                            (iotaInDim S8192 32 0)))
                        (broadcastInDim S8192 ![] bcast_S_S8192 (constantI S_ 32 1#32))⟩]
                  concatenates_S105_S8192_S8297_d0)
                (broadcastInDim S8297 ![] bcast_S_S8297 (constantI S_ 32 0#32)))
              (addi
                (concatenate S8297 0
                  [⟨S105,
                      fun i => lit3 (S105.rowMajor i)⟩,
                   ⟨S8192,
                      addi
                        (addi
                          (broadcastInDim S8192 ![] bcast_S_S8192 (constantI S_ 32 15#32))
                          (muli
                            (broadcastInDim S8192 ![] bcast_S_S8192 (constantI S_ 32 2#32))
                            (iotaInDim S8192 32 0)))
                        (broadcastInDim S8192 ![] bcast_S_S8192 (constantI S_ 32 1#32))⟩]
                  concatenates_S105_S8192_S8297_d0)
                (broadcastInDim S8297 ![] bcast_S_S8297 (constantI S_ 32 16399#32)))
              (concatenate S8297 0
                [⟨S105,
                    fun i => lit3 (S105.rowMajor i)⟩,
                 ⟨S8192,
                    addi
                      (addi
                        (broadcastInDim S8192 ![] bcast_S_S8192 (constantI S_ 32 15#32))
                        (muli (broadcastInDim S8192 ![] bcast_S_S8192 (constantI S_ 32 2#32)) (iotaInDim S8192 32 0)))
                      (broadcastInDim S8192 ![] bcast_S_S8192 (constantI S_ 32 1#32))⟩]
                concatenates_S105_S8192_S8297_d0)))))
      (constant S_ .f32 0x00000000#32) reducesTo_S8297_S_d0 h_S_)

/-! ## @main as the list of its operations

@main is two windows run in order; each window is a straight line of host operations, so it is `seq` of their list, and
the two lists appended are the whole program (`seq_append`). -/

/-- The 60 operations of @main's first window (statements 1 … 60), in order. -/
abbrev ops0 : List (HloOp τ sig (Elt F)) :=
  [ StableHlo.nullary main_c (fun i => lit0 (S105.rowMajor i)),
    StableHlo.nullary main_c_0 (constantI S105 1 0#1),
    StableHlo.nullary main_c_1 (fun i => lit1 (S105.rowMajor i)),
    StableHlo.nullary main_c_2 (constantI S105 1 0#1),
    StableHlo.nullary main_c_3 (fun i => lit2 (S105.rowMajor i)),
    StableHlo.nullary main_c_4 (fun i => lit3 (S105.rowMajor i)),
    StableHlo.nullary main_c_5 (constantI S_ 32 15#32),
    StableHlo.unary main_c_5 main_v0 (broadcastInDim S105 ![] bcast_S_S105 : (⟨S_, .i32⟩ : BufTy).Contents (Elt F) → (⟨S105, .i32⟩ : BufTy).Contents (Elt F)),
    StableHlo.binary main_c main_v0 main_v1 (addi : (⟨S105, .i32⟩ : BufTy).Contents (Elt F) → (⟨S105, .i32⟩ : BufTy).Contents (Elt F) → (⟨S105, .i32⟩ : BufTy).Contents (Elt F)),
    StableHlo.ternary main_c_0 main_v1 main_c main_v2 (select : (⟨S105, .i1⟩ : BufTy).Contents (Elt F) → (⟨S105, .i32⟩ : BufTy).Contents (Elt F) → (⟨S105, .i32⟩ : BufTy).Contents (Elt F) → (⟨S105, .i32⟩ : BufTy).Contents (Elt F)),
    StableHlo.unary main_v2 main_v3 (broadcastInDim S105x1 ![0] bcast_S105_S105x1_0 : (⟨S105, .i32⟩ : BufTy).Contents (Elt F) → (⟨S105x1, .i32⟩ : BufTy).Contents (Elt F)),
    StableHlo.binary main_arg0 main_v3 main_v4 ((fun x i => Host.gather gather_S15x8_S105x1_S105x8_1_0_n_n_0_1_18 x i) : (⟨S15x8, .f32⟩ : BufTy).Contents (Elt F) → (⟨S105x1, .i32⟩ : BufTy).Contents (Elt F) → (⟨S105x8, .f32⟩ : BufTy).Contents (Elt F)),
    StableHlo.nullary main_c_6 (constantI S_ 32 15#32),
    StableHlo.unary main_c_6 main_v5 (broadcastInDim S105 ![] bcast_S_S105 : (⟨S_, .i32⟩ : BufTy).Contents (Elt F) → (⟨S105, .i32⟩ : BufTy).Contents (Elt F)),
    StableHlo.binary main_c_1 main_v5 main_v6 (addi : (⟨S105, .i32⟩ : BufTy).Contents (Elt F) → (⟨S105, .i32⟩ : BufTy).Contents (Elt F) → (⟨S105, .i32⟩ : BufTy).Contents (Elt F)),
    StableHlo.ternary main_c_2 main_v6 main_c_1 main_v7 (select : (⟨S105, .i1⟩ : BufTy).Contents (Elt F) → (⟨S105, .i32⟩ : BufTy).Contents (Elt F) → (⟨S105, .i32⟩ : BufTy).Contents (Elt F) → (⟨S105, .i32⟩ : BufTy).Contents (Elt F)),
    StableHlo.unary main_v7 main_v8 (broadcastInDim S105x1 ![0] bcast_S105_S105x1_0 : (⟨S105, .i32⟩ : BufTy).Contents (Elt F) → (⟨S105x1, .i32⟩ : BufTy).Contents (Elt F)),
    StableHlo.binary main_arg0 main_v8 main_v9 ((fun x i => Host.gather gather_S15x8_S105x1_S105x8_1_0_n_n_0_1_18 x i) : (⟨S15x8, .f32⟩ : BufTy).Contents (Elt F) → (⟨S105x1, .i32⟩ : BufTy).Contents (Elt F) → (⟨S105x8, .f32⟩ : BufTy).Contents (Elt F)),
    StableHlo.binary main_v4 main_v9 main_v10 (subf : (⟨S105x8, .f32⟩ : BufTy).Contents (Elt F) → (⟨S105x8, .f32⟩ : BufTy).Contents (Elt F) → (⟨S105x8, .f32⟩ : BufTy).Contents (Elt F)),
    StableHlo.binary main_v10 main_v10 main_v11 (mulf : (⟨S105x8, .f32⟩ : BufTy).Contents (Elt F) → (⟨S105x8, .f32⟩ : BufTy).Contents (Elt F) → (⟨S105x8, .f32⟩ : BufTy).Contents (Elt F)),
    StableHlo.nullary main_cst (constant S_ .f32 0x00000000#32),
    StableHlo.binary main_v11 main_cst main_v12 ((fun x v => Host.reduceAdd x v reducesTo_S105x8_S105_d1 h_S_) : (⟨S105x8, .f32⟩ : BufTy).Contents (Elt F) → (⟨S_, .f32⟩ : BufTy).Contents (Elt F) → (⟨S105, .f32⟩ : BufTy).Contents (Elt F)),
    StableHlo.unary main_v12 main_v13 (Host.sqrt : (⟨S105, .f32⟩ : BufTy).Contents (Elt F) → (⟨S105, .f32⟩ : BufTy).Contents (Elt F)),
    StableHlo.unary main_v13 main_v14 (Host.negf : (⟨S105, .f32⟩ : BufTy).Contents (Elt F) → (⟨S105, .f32⟩ : BufTy).Contents (Elt F)),
    StableHlo.unary main_v14 main_v15 (Host.exp : (⟨S105, .f32⟩ : BufTy).Contents (Elt F) → (⟨S105, .f32⟩ : BufTy).Contents (Elt F)),
    StableHlo.reshape main_arg1 main_v16 rfl shapeCasts_S16384x8_S8192x2x8,
    StableHlo.unary main_v16 main_v17 ((extractStridedSlice S8192x1x8 ![0, 0, 0] · slices_S8192x2x8_S8192x1x8_0_0_0) : (⟨S8192x2x8, .f32⟩ : BufTy).Contents (Elt F) → (⟨S8192x1x8, .f32⟩ : BufTy).Contents (Elt F)),
    StableHlo.reshape main_v17 main_v18 rfl shapeCasts_S8192x1x8_S8192x8,
    StableHlo.unary main_v16 main_v19 ((extractStridedSlice S8192x1x8 ![0, 1, 0] · slices_S8192x2x8_S8192x1x8_0_1_0) : (⟨S8192x2x8, .f32⟩ : BufTy).Contents (Elt F) → (⟨S8192x1x8, .f32⟩ : BufTy).Contents (Elt F)),
    StableHlo.reshape main_v19 main_v20 rfl shapeCasts_S8192x1x8_S8192x8,
    StableHlo.binary main_v18 main_v20 main_v21 (subf : (⟨S8192x8, .f32⟩ : BufTy).Contents (Elt F) → (⟨S8192x8, .f32⟩ : BufTy).Contents (Elt F) → (⟨S8192x8, .f32⟩ : BufTy).Contents (Elt F)),
    StableHlo.binary main_v21 main_v21 main_v22 (mulf : (⟨S8192x8, .f32⟩ : BufTy).Contents (Elt F) → (⟨S8192x8, .f32⟩ : BufTy).Contents (Elt F) → (⟨S8192x8, .f32⟩ : BufTy).Contents (Elt F)),
    StableHlo.nullary main_cst_7 (constant S_ .f32 0x00000000#32),
    StableHlo.binary main_v22 main_cst_7 main_v23 ((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)),
    StableHlo.unary main_v23 main_v24 (Host.sqrt : (⟨S8192, .f32⟩ : BufTy).Contents (Elt F) → (⟨S8192, .f32⟩ : BufTy).Contents (Elt F)),
    StableHlo.unary main_v24 main_v25 (Host.negf : (⟨S8192, .f32⟩ : BufTy).Contents (Elt F) → (⟨S8192, .f32⟩ : BufTy).Contents (Elt F)),
    StableHlo.unary main_v25 main_v26 (Host.exp : (⟨S8192, .f32⟩ : BufTy).Contents (Elt F) → (⟨S8192, .f32⟩ : BufTy).Contents (Elt F)),
    StableHlo.binary main_v15 main_v26 main_v27 ((fun a b => concatenate S8297 0 [⟨S105, a⟩, ⟨S8192, b⟩] concatenates_S105_S8192_S8297_d0) : (⟨S105, .f32⟩ : BufTy).Contents (Elt F) → (⟨S8192, .f32⟩ : BufTy).Contents (Elt F) → (⟨S8297, .f32⟩ : BufTy).Contents (Elt F)),
    StableHlo.nullary main_v28 (iotaInDim S8192 32 0),
    StableHlo.nullary main_c_8 (constantI S_ 32 2#32),
    StableHlo.unary main_c_8 main_v29 (broadcastInDim S8192 ![] bcast_S_S8192 : (⟨S_, .i32⟩ : BufTy).Contents (Elt F) → (⟨S8192, .i32⟩ : BufTy).Contents (Elt F)),
    StableHlo.binary main_v29 main_v28 main_v30 (muli : (⟨S8192, .i32⟩ : BufTy).Contents (Elt F) → (⟨S8192, .i32⟩ : BufTy).Contents (Elt F) → (⟨S8192, .i32⟩ : BufTy).Contents (Elt F)),
    StableHlo.nullary main_c_9 (constantI S_ 32 15#32),
    StableHlo.unary main_c_9 main_v31 (broadcastInDim S8192 ![] bcast_S_S8192 : (⟨S_, .i32⟩ : BufTy).Contents (Elt F) → (⟨S8192, .i32⟩ : BufTy).Contents (Elt F)),
    StableHlo.binary main_v31 main_v30 main_v32 (addi : (⟨S8192, .i32⟩ : BufTy).Contents (Elt F) → (⟨S8192, .i32⟩ : BufTy).Contents (Elt F) → (⟨S8192, .i32⟩ : BufTy).Contents (Elt F)),
    StableHlo.binary main_c_3 main_v32 main_v33 ((fun a b => concatenate S8297 0 [⟨S105, a⟩, ⟨S8192, b⟩] concatenates_S105_S8192_S8297_d0) : (⟨S105, .i32⟩ : BufTy).Contents (Elt F) → (⟨S8192, .i32⟩ : BufTy).Contents (Elt F) → (⟨S8297, .i32⟩ : BufTy).Contents (Elt F)),
    StableHlo.nullary main_c_10 (constantI S_ 32 2#32),
    StableHlo.unary main_c_10 main_v34 (broadcastInDim S8192 ![] bcast_S_S8192 : (⟨S_, .i32⟩ : BufTy).Contents (Elt F) → (⟨S8192, .i32⟩ : BufTy).Contents (Elt F)),
    StableHlo.binary main_v34 main_v28 main_v35 (muli : (⟨S8192, .i32⟩ : BufTy).Contents (Elt F) → (⟨S8192, .i32⟩ : BufTy).Contents (Elt F) → (⟨S8192, .i32⟩ : BufTy).Contents (Elt F)),
    StableHlo.nullary main_c_11 (constantI S_ 32 15#32),
    StableHlo.unary main_c_11 main_v36 (broadcastInDim S8192 ![] bcast_S_S8192 : (⟨S_, .i32⟩ : BufTy).Contents (Elt F) → (⟨S8192, .i32⟩ : BufTy).Contents (Elt F)),
    StableHlo.binary main_v36 main_v35 main_v37 (addi : (⟨S8192, .i32⟩ : BufTy).Contents (Elt F) → (⟨S8192, .i32⟩ : BufTy).Contents (Elt F) → (⟨S8192, .i32⟩ : BufTy).Contents (Elt F)),
    StableHlo.nullary main_c_12 (constantI S_ 32 1#32),
    StableHlo.unary main_c_12 main_v38 (broadcastInDim S8192 ![] bcast_S_S8192 : (⟨S_, .i32⟩ : BufTy).Contents (Elt F) → (⟨S8192, .i32⟩ : BufTy).Contents (Elt F)),
    StableHlo.binary main_v37 main_v38 main_v39 (addi : (⟨S8192, .i32⟩ : BufTy).Contents (Elt F) → (⟨S8192, .i32⟩ : BufTy).Contents (Elt F) → (⟨S8192, .i32⟩ : BufTy).Contents (Elt F)),
    StableHlo.binary main_c_4 main_v39 main_v40 ((fun a b => concatenate S8297 0 [⟨S105, a⟩, ⟨S8192, b⟩] concatenates_S105_S8192_S8297_d0) : (⟨S105, .i32⟩ : BufTy).Contents (Elt F) → (⟨S8192, .i32⟩ : BufTy).Contents (Elt F) → (⟨S8297, .i32⟩ : BufTy).Contents (Elt F)),
    StableHlo.unary main_arg2 main_v41 (Host.exp : (⟨S4000000, .f32⟩ : BufTy).Contents (Elt F) → (⟨S4000000, .f32⟩ : BufTy).Contents (Elt F)),
    StableHlo.nullary main_c_13 (constantI S_ 32 0#32),
    StableHlo.unary main_c_13 main_v42 (broadcastInDim S4000000 ![] bcast_S_S4000000 : (⟨S_, .i32⟩ : BufTy).Contents (Elt F) → (⟨S4000000, .i32⟩ : BufTy).Contents (Elt F)),
    StableHlo.binary main_arg5 main_v42 main_v43 (cmpi .slt : (⟨S4000000, .i32⟩ : BufTy).Contents (Elt F) → (⟨S4000000, .i32⟩ : BufTy).Contents (Elt F) → (⟨S4000000, .i1⟩ : BufTy).Contents (Elt F)) ]

/-- The 35 operations of @main's second window (statements 61 … 95; statement 96 is the return), in order. -/
abbrev ops1 : List (HloOp τ sig (Elt F)) :=
  [ StableHlo.nullary main_c_14 (constantI S_ 32 4000000#32),
    StableHlo.unary main_c_14 main_v44 (broadcastInDim S4000000 ![] bcast_S_S4000000 : (⟨S_, .i32⟩ : BufTy).Contents (Elt F) → (⟨S4000000, .i32⟩ : BufTy).Contents (Elt F)),
    StableHlo.binary main_arg5 main_v44 main_v45 (addi : (⟨S4000000, .i32⟩ : BufTy).Contents (Elt F) → (⟨S4000000, .i32⟩ : BufTy).Contents (Elt F) → (⟨S4000000, .i32⟩ : BufTy).Contents (Elt F)),
    StableHlo.ternary main_v43 main_v45 main_arg5 main_v46 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v46 main_v47 (broadcastInDim S4000000x1 ![0] bcast_S4000000_S4000000x1_0 : (⟨S4000000, .i32⟩ : BufTy).Contents (Elt F) → (⟨S4000000x1, .i32⟩ : BufTy).Contents (Elt F)),
    StableHlo.binary main_v41 main_v47 main_v48 ((fun x i => Host.gather gather_S4000000_S4000000x1_S4000000_n_0_n_n_0_1_1 x i) : (⟨S4000000, .f32⟩ : BufTy).Contents (Elt F) → (⟨S4000000x1, .i32⟩ : BufTy).Contents (Elt F) → (⟨S4000000, .f32⟩ : BufTy).Contents (Elt F)),
    StableHlo.nullary main_cst_15 (constant S_ .f32 0x00000000#32),
    StableHlo.unary main_cst_15 main_v49 (broadcastInDim S16399 ![] bcast_S_S16399 : (⟨S_, .f32⟩ : BufTy).Contents (Elt F) → (⟨S16399, .f32⟩ : BufTy).Contents (Elt F)),
    StableHlo.unary main_arg4 main_v50 (broadcastInDim S4000000x1 ![0] bcast_S4000000_S4000000x1_0 : (⟨S4000000, .i32⟩ : BufTy).Contents (Elt F) → (⟨S4000000x1, .i32⟩ : BufTy).Contents (Elt F)),
    StableHlo.ternary main_v49 main_v50 main_v48 main_v51 ((fun x i u => Host.scatterAdd scatter_S16399_S4000000x1_S4000000_n_0_0_1 x i u) : (⟨S16399, .f32⟩ : BufTy).Contents (Elt F) → (⟨S4000000x1, .i32⟩ : BufTy).Contents (Elt F) → (⟨S4000000, .f32⟩ : BufTy).Contents (Elt F) → (⟨S16399, .f32⟩ : BufTy).Contents (Elt F)),
    StableHlo.unary main_arg3 main_v52 (Host.exp : (⟨S1, .f32⟩ : BufTy).Contents (Elt F) → (⟨S1, .f32⟩ : BufTy).Contents (Elt F)),
    StableHlo.reshape main_v52 main_v53 rfl shapeCasts_S1_S_,
    StableHlo.nullary main_c_16 (constantI S_ 32 0#32),
    StableHlo.unary main_c_16 main_v54 (broadcastInDim S8297 ![] bcast_S_S8297 : (⟨S_, .i32⟩ : BufTy).Contents (Elt F) → (⟨S8297, .i32⟩ : BufTy).Contents (Elt F)),
    StableHlo.binary main_v33 main_v54 main_v55 (cmpi .slt : (⟨S8297, .i32⟩ : BufTy).Contents (Elt F) → (⟨S8297, .i32⟩ : BufTy).Contents (Elt F) → (⟨S8297, .i1⟩ : BufTy).Contents (Elt F)),
    StableHlo.nullary main_c_17 (constantI S_ 32 16399#32),
    StableHlo.unary main_c_17 main_v56 (broadcastInDim S8297 ![] bcast_S_S8297 : (⟨S_, .i32⟩ : BufTy).Contents (Elt F) → (⟨S8297, .i32⟩ : BufTy).Contents (Elt F)),
    StableHlo.binary main_v33 main_v56 main_v57 (addi : (⟨S8297, .i32⟩ : BufTy).Contents (Elt F) → (⟨S8297, .i32⟩ : BufTy).Contents (Elt F) → (⟨S8297, .i32⟩ : BufTy).Contents (Elt F)),
    StableHlo.ternary main_v55 main_v57 main_v33 main_v58 (select : (⟨S8297, .i1⟩ : BufTy).Contents (Elt F) → (⟨S8297, .i32⟩ : BufTy).Contents (Elt F) → (⟨S8297, .i32⟩ : BufTy).Contents (Elt F) → (⟨S8297, .i32⟩ : BufTy).Contents (Elt F)),
    StableHlo.unary main_v58 main_v59 (broadcastInDim S8297x1 ![0] bcast_S8297_S8297x1_0 : (⟨S8297, .i32⟩ : BufTy).Contents (Elt F) → (⟨S8297x1, .i32⟩ : BufTy).Contents (Elt F)),
    StableHlo.binary main_v51 main_v59 main_v60 ((fun x i => Host.gather gather_S16399_S8297x1_S8297_n_0_n_n_0_1_1 x i) : (⟨S16399, .f32⟩ : BufTy).Contents (Elt F) → (⟨S8297x1, .i32⟩ : BufTy).Contents (Elt F) → (⟨S8297, .f32⟩ : BufTy).Contents (Elt F)),
    StableHlo.binary main_v27 main_v60 main_v61 (mulf : (⟨S8297, .f32⟩ : BufTy).Contents (Elt F) → (⟨S8297, .f32⟩ : BufTy).Contents (Elt F) → (⟨S8297, .f32⟩ : BufTy).Contents (Elt F)),
    StableHlo.nullary main_c_18 (constantI S_ 32 0#32),
    StableHlo.unary main_c_18 main_v62 (broadcastInDim S8297 ![] bcast_S_S8297 : (⟨S_, .i32⟩ : BufTy).Contents (Elt F) → (⟨S8297, .i32⟩ : BufTy).Contents (Elt F)),
    StableHlo.binary main_v40 main_v62 main_v63 (cmpi .slt : (⟨S8297, .i32⟩ : BufTy).Contents (Elt F) → (⟨S8297, .i32⟩ : BufTy).Contents (Elt F) → (⟨S8297, .i1⟩ : BufTy).Contents (Elt F)),
    StableHlo.nullary main_c_19 (constantI S_ 32 16399#32),
    StableHlo.unary main_c_19 main_v64 (broadcastInDim S8297 ![] bcast_S_S8297 : (⟨S_, .i32⟩ : BufTy).Contents (Elt F) → (⟨S8297, .i32⟩ : BufTy).Contents (Elt F)),
    StableHlo.binary main_v40 main_v64 main_v65 (addi : (⟨S8297, .i32⟩ : BufTy).Contents (Elt F) → (⟨S8297, .i32⟩ : BufTy).Contents (Elt F) → (⟨S8297, .i32⟩ : BufTy).Contents (Elt F)),
    StableHlo.ternary main_v63 main_v65 main_v40 main_v66 (select : (⟨S8297, .i1⟩ : BufTy).Contents (Elt F) → (⟨S8297, .i32⟩ : BufTy).Contents (Elt F) → (⟨S8297, .i32⟩ : BufTy).Contents (Elt F) → (⟨S8297, .i32⟩ : BufTy).Contents (Elt F)),
    StableHlo.unary main_v66 main_v67 (broadcastInDim S8297x1 ![0] bcast_S8297_S8297x1_0 : (⟨S8297, .i32⟩ : BufTy).Contents (Elt F) → (⟨S8297x1, .i32⟩ : BufTy).Contents (Elt F)),
    StableHlo.binary main_v51 main_v67 main_v68 ((fun x i => Host.gather gather_S16399_S8297x1_S8297_n_0_n_n_0_1_1 x i) : (⟨S16399, .f32⟩ : BufTy).Contents (Elt F) → (⟨S8297x1, .i32⟩ : BufTy).Contents (Elt F) → (⟨S8297, .f32⟩ : BufTy).Contents (Elt F)),
    StableHlo.binary main_v61 main_v68 main_v69 (mulf : (⟨S8297, .f32⟩ : BufTy).Contents (Elt F) → (⟨S8297, .f32⟩ : BufTy).Contents (Elt F) → (⟨S8297, .f32⟩ : BufTy).Contents (Elt F)),
    StableHlo.nullary main_cst_20 (constant S_ .f32 0x00000000#32),
    StableHlo.binary main_v69 main_cst_20 main_v70 ((fun x v => Host.reduceAdd x v reducesTo_S8297_S_d0 h_S_) : (⟨S8297, .f32⟩ : BufTy).Contents (Elt F) → (⟨S_, .f32⟩ : BufTy).Contents (Elt F) → (⟨S_, .f32⟩ : BufTy).Contents (Elt F)),
    StableHlo.binary main_v53 main_v70 main_v71 (mulf : (⟨S_, .f32⟩ : BufTy).Contents (Elt F) → (⟨S_, .f32⟩ : BufTy).Contents (Elt F) → (⟨S_, .f32⟩ : BufTy).Contents (Elt F)) ]

/-- @main's 95 operations, in order. -/
abbrev ops : List (HloOp τ sig (Elt F)) := ops0 ++ ops1

set_option maxRecDepth 4096 in
set_option maxHeartbeats 4000000 in
theorem main_part0_eq (c : Dev nD) : main_part0 (F := F) c = seq ops0 := rfl

set_option maxRecDepth 4096 in
set_option maxHeartbeats 4000000 in
theorem main_part1_eq (c : Dev nD) : main_part1 (F := F) c = seq ops1 := rfl

theorem main_eq (c : Dev nD) : main (F := F) c = seq ops := by
  show (main_part0 c >>= fun _ => main_part1 c) = seq (ops0 ++ ops1)
  rw [seq_append, main_part0_eq c, main_part1_eq c]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., nullary_bufs_sub .., nullary_bufs_sub .., nullary_bufs_sub .., nullary_bufs_sub ..,
   nullary_bufs_sub .., nullary_bufs_sub .., unary_bufs_sub .., binary_bufs_sub .., ternary_bufs_sub ..,
   unary_bufs_sub .., binary_bufs_sub .., nullary_bufs_sub .., unary_bufs_sub .., binary_bufs_sub ..,
   ternary_bufs_sub .., unary_bufs_sub .., binary_bufs_sub .., binary_bufs_sub .., binary_bufs_sub ..,
   nullary_bufs_sub .., binary_bufs_sub .., unary_bufs_sub .., unary_bufs_sub .., unary_bufs_sub ..,
   reshape_bufs_sub .., unary_bufs_sub .., reshape_bufs_sub .., unary_bufs_sub .., reshape_bufs_sub ..,
   binary_bufs_sub .., binary_bufs_sub .., nullary_bufs_sub .., binary_bufs_sub .., unary_bufs_sub ..,
   unary_bufs_sub .., unary_bufs_sub .., binary_bufs_sub .., nullary_bufs_sub .., nullary_bufs_sub ..,
   unary_bufs_sub .., binary_bufs_sub .., nullary_bufs_sub .., unary_bufs_sub .., binary_bufs_sub ..,
   binary_bufs_sub .., nullary_bufs_sub .., unary_bufs_sub .., binary_bufs_sub .., nullary_bufs_sub ..,
   unary_bufs_sub .., binary_bufs_sub .., nullary_bufs_sub .., unary_bufs_sub .., binary_bufs_sub ..,
   binary_bufs_sub .., unary_bufs_sub .., nullary_bufs_sub .., unary_bufs_sub .., binary_bufs_sub ..⟩

theorem ops1_sub : (ops1 : List (HloOp τ sig (Elt F))).Forall fun op => op.bufs ⊆ tcRefs τ sig :=
  ⟨nullary_bufs_sub .., unary_bufs_sub .., binary_bufs_sub .., ternary_bufs_sub .., unary_bufs_sub ..,
   binary_bufs_sub .., nullary_bufs_sub .., unary_bufs_sub .., unary_bufs_sub .., ternary_bufs_sub ..,
   unary_bufs_sub .., reshape_bufs_sub .., nullary_bufs_sub .., unary_bufs_sub .., binary_bufs_sub ..,
   nullary_bufs_sub .., unary_bufs_sub .., binary_bufs_sub .., ternary_bufs_sub .., unary_bufs_sub ..,
   binary_bufs_sub .., binary_bufs_sub .., nullary_bufs_sub .., unary_bufs_sub .., binary_bufs_sub ..,
   nullary_bufs_sub .., unary_bufs_sub .., binary_bufs_sub .., ternary_bufs_sub .., unary_bufs_sub ..,
   binary_bufs_sub .., binary_bufs_sub .., nullary_bufs_sub .., binary_bufs_sub .., binary_bufs_sub ..⟩

theorem ops_sub : (ops : List (HloOp τ sig (Elt F))).Forall fun op => op.bufs ⊆ tcRefs τ sig :=
  List.forall_append.mpr ⟨ops0_sub, ops1_sub⟩

/-! ## What the buffers hold after the line

No operation writes an argument, so each argument's buffer ends as it began; the result buffer ends at the operations'
composed term, which is `tail` at the arguments and at the scatter-add's term `seg`. -/

theorem read_arg0 (V : Valuation τ sig (Elt F)) :
    after ops V (Proc.devRef .tc main_arg0) = V (Proc.devRef .tc main_arg0) := by
  show after (ops0 ++ ops1) V _ = _
  rw [after_append]
  after_results_simp

theorem read_arg1 (V : Valuation τ sig (Elt F)) :
    after ops V (Proc.devRef .tc main_arg1) = V (Proc.devRef .tc main_arg1) := by
  show after (ops0 ++ ops1) V _ = _
  rw [after_append]
  after_results_simp

theorem read_arg2 (V : Valuation τ sig (Elt F)) :
    after ops V (Proc.devRef .tc main_arg2) = V (Proc.devRef .tc main_arg2) := by
  show after (ops0 ++ ops1) V _ = _
  rw [after_append]
  after_results_simp

theorem read_arg3 (V : Valuation τ sig (Elt F)) :
    after ops V (Proc.devRef .tc main_arg3) = V (Proc.devRef .tc main_arg3) := by
  show after (ops0 ++ ops1) V _ = _
  rw [after_append]
  after_results_simp

theorem read_arg4 (V : Valuation τ sig (Elt F)) :
    after ops V (Proc.devRef .tc main_arg4) = V (Proc.devRef .tc main_arg4) := by
  show after (ops0 ++ ops1) V _ = _
  rw [after_append]
  after_results_simp

theorem read_arg5 (V : Valuation τ sig (Elt F)) :
    after ops V (Proc.devRef .tc main_arg5) = V (Proc.devRef .tc main_arg5) := by
  show after (ops0 ++ ops1) V _ = _
  rw [after_append]
  after_results_simp

/-! ## The first window's results that the second window reads

The second window reads, of what the first wrote, the pair values, the row and column ids, `exp gamma` and the sign mask of
the node ids; of the arguments it reads the bias, the cluster ids and the node ids. Each is read once after the first
window alone, so that the second window is then read over a valuation known only at those buffers. -/

/-- The 8297 pair values (statement 38): the exponentials of the negated distances of the 105 centroid pairs, then of the
    8192 consecutive row pairs. -/
def pairVals (a0 : FVec F S15x8 .f32) (a1 : FVec F S16384x8 .f32) : FVec F S8297 .f32 :=
          (concatenate S8297 0
            [⟨S105,
                Host.exp
                  (Host.negf
                    (Host.sqrt
                      (Host.reduceAdd
                        (mulf
                          (subf
                            (Host.gather gather_S15x8_S105x1_S105x8_1_0_n_n_0_1_18 a0
                              (broadcastInDim S105x1 ![0] bcast_S105_S105x1_0
                                (select
                                  (constantI S105 1 0#1)
                                  (addi
                                    (fun i => lit0 (S105.rowMajor i))
                                    (broadcastInDim S105 ![] bcast_S_S105 (constantI S_ 32 15#32)))
                                  (fun i => lit0 (S105.rowMajor i)))))
                            (Host.gather gather_S15x8_S105x1_S105x8_1_0_n_n_0_1_18 a0
                              (broadcastInDim S105x1 ![0] bcast_S105_S105x1_0
                                (select
                                  (constantI S105 1 0#1)
                                  (addi
                                    (fun i => lit1 (S105.rowMajor i))
                                    (broadcastInDim S105 ![] bcast_S_S105 (constantI S_ 32 15#32)))
                                  (fun i => lit1 (S105.rowMajor i))))))
                          (subf
                            (Host.gather gather_S15x8_S105x1_S105x8_1_0_n_n_0_1_18 a0
                              (broadcastInDim S105x1 ![0] bcast_S105_S105x1_0
                                (select
                                  (constantI S105 1 0#1)
                                  (addi
                                    (fun i => lit0 (S105.rowMajor i))
                                    (broadcastInDim S105 ![] bcast_S_S105 (constantI S_ 32 15#32)))
                                  (fun i => lit0 (S105.rowMajor i)))))
                            (Host.gather gather_S15x8_S105x1_S105x8_1_0_n_n_0_1_18 a0
                              (broadcastInDim S105x1 ![0] bcast_S105_S105x1_0
                                (select
                                  (constantI S105 1 0#1)
                                  (addi
                                    (fun i => lit1 (S105.rowMajor i))
                                    (broadcastInDim S105 ![] bcast_S_S105 (constantI S_ 32 15#32)))
                                  (fun i => lit1 (S105.rowMajor i)))))))
                        (constant S_ .f32 0x00000000#32) reducesTo_S105x8_S105_d1 h_S_)))⟩,
             ⟨S8192,
                Host.exp
                  (Host.negf
                    (Host.sqrt
                      (Host.reduceAdd
                        (mulf
                          (subf
                            (shapeCast S8192x8
                              (extractStridedSlice S8192x1x8 ![0, 0, 0]
                                (shapeCast S8192x2x8 a1 shapeCasts_S16384x8_S8192x2x8) slices_S8192x2x8_S8192x1x8_0_0_0) shapeCasts_S8192x1x8_S8192x8)
                            (shapeCast S8192x8
                              (extractStridedSlice S8192x1x8 ![0, 1, 0]
                                (shapeCast S8192x2x8 a1 shapeCasts_S16384x8_S8192x2x8) slices_S8192x2x8_S8192x1x8_0_1_0) shapeCasts_S8192x1x8_S8192x8))
                          (subf
                            (shapeCast S8192x8
                              (extractStridedSlice S8192x1x8 ![0, 0, 0]
                                (shapeCast S8192x2x8 a1 shapeCasts_S16384x8_S8192x2x8) slices_S8192x2x8_S8192x1x8_0_0_0) shapeCasts_S8192x1x8_S8192x8)
                            (shapeCast S8192x8
                              (extractStridedSlice S8192x1x8 ![0, 1, 0]
                                (shapeCast S8192x2x8 a1 shapeCasts_S16384x8_S8192x2x8) slices_S8192x2x8_S8192x1x8_0_1_0) shapeCasts_S8192x1x8_S8192x8)))
                        (constant S_ .f32 0x00000000#32) reducesTo_S8192x8_S8192_d1 h_S_)))⟩]
            concatenates_S105_S8192_S8297_d0)

/-- The 8297 row ids (statement 46): the table `lit2`, then `15 + 2n`. -/
def rowIds : IVec S8297 32 :=
                  (concatenate S8297 0
                    [⟨S105,
                        fun i => lit2 (S105.rowMajor i)⟩,
                     ⟨S8192,
                        addi
                          (broadcastInDim S8192 ![] bcast_S_S8192 (constantI S_ 32 15#32))
                          (muli
                            (broadcastInDim S8192 ![] bcast_S_S8192 (constantI S_ 32 2#32))
                            (iotaInDim S8192 32 0))⟩]
                    concatenates_S105_S8192_S8297_d0)

/-- The 8297 column ids (statement 56): the table `lit3`, then `15 + 2n + 1`. -/
def colIds : IVec S8297 32 :=
                (concatenate S8297 0
                  [⟨S105,
                      fun i => lit3 (S105.rowMajor i)⟩,
                   ⟨S8192,
                      addi
                        (addi
                          (broadcastInDim S8192 ![] bcast_S_S8192 (constantI S_ 32 15#32))
                          (muli
                            (broadcastInDim S8192 ![] bcast_S_S8192 (constantI S_ 32 2#32))
                            (iotaInDim S8192 32 0)))
                        (broadcastInDim S8192 ![] bcast_S_S8192 (constantI S_ 32 1#32))⟩]
                  concatenates_S105_S8192_S8297_d0)

set_option maxHeartbeats 4000000 in
/-- After the first window the pair values' buffer holds `pairVals` of the two centroid arrays. -/
theorem ops0_v27 (V : Valuation τ sig (Elt F)) :
    after ops0 V (Proc.devRef .tc main_v27) = pairVals (V (Proc.devRef .tc main_arg0)) (V (Proc.devRef .tc main_arg1)) := by
  after_results
  rfl

set_option maxHeartbeats 4000000 in
/-- After the first window the row ids' buffer holds `rowIds`. -/
theorem ops0_v33 (V : Valuation τ sig (Elt F)) : after ops0 V (Proc.devRef .tc main_v33) = rowIds := by
  after_results
  rfl

set_option maxHeartbeats 4000000 in
/-- After the first window the column ids' buffer holds `colIds`. -/
theorem ops0_v40 (V : Valuation τ sig (Elt F)) : after ops0 V (Proc.devRef .tc main_v40) = colIds := by
  after_results
  rfl

set_option maxHeartbeats 4000000 in
/-- After the first window: `exp gamma`. -/
theorem ops0_v41 (V : Valuation τ sig (Elt F)) : after ops0 V (Proc.devRef .tc main_v41) = Host.exp (V (Proc.devRef .tc main_arg2)) := by
  after_results

set_option maxHeartbeats 4000000 in
/-- After the first window: the mask of the negative node ids. -/
theorem ops0_v43 (V : Valuation τ sig (Elt F)) :
    after ops0 V (Proc.devRef .tc main_v43)
      = cmpi .slt (V (Proc.devRef .tc main_arg5)) (broadcastInDim S4000000 ![] bcast_S_S4000000 (constantI S_ 32 0#32)) := by
  after_results

/-- The first window leaves the bias as it was. -/
theorem ops0_arg3 (V : Valuation τ sig (Elt F)) : after ops0 V (Proc.devRef .tc main_arg3) = V (Proc.devRef .tc main_arg3) := by
  after_results_simp

/-- The first window leaves the cluster ids as they were. -/
theorem ops0_arg4 (V : Valuation τ sig (Elt F)) : after ops0 V (Proc.devRef .tc main_arg4) = V (Proc.devRef .tc main_arg4) := by
  after_results_simp

/-- The first window leaves the node ids as they were. -/
theorem ops0_arg5 (V : Valuation τ sig (Elt F)) : after ops0 V (Proc.devRef .tc main_arg5) = V (Proc.devRef .tc main_arg5) := by
  after_results_simp

set_option maxHeartbeats 4000000 in
/-- After the whole line the result buffer holds the closing combine `tail` of the arguments and of the per-cluster sums
    `seg`: the second window reads, of the first window's results, the pair values, the row and column ids, `exp gamma`
    and the sign mask of the node ids, and the arguments. -/
theorem read_v71 (V : Valuation τ sig (Elt F)) :
    after ops V (Proc.devRef .tc main_v71)
      = tail (V (Proc.devRef .tc main_arg0)) (V (Proc.devRef .tc main_arg1)) (V (Proc.devRef .tc main_arg3))
          (seg (V (Proc.devRef .tc main_arg2)) (V (Proc.devRef .tc main_arg4)) (V (Proc.devRef .tc main_arg5))) := by
  show after (ops0 ++ ops1) V _ = _
  rw [after_append]
  have h27 := ops0_v27 V
  have h33 := ops0_v33 V
  have h40 := ops0_v40 V
  have h41 := ops0_v41 V
  have h43 := ops0_v43 V
  have h3 := ops0_arg3 V
  have h4 := ops0_arg4 V
  have h5 := ops0_arg5 V
  generalize after ops0 V = W at h27 h33 h40 h41 h43 h3 h4 h5 ⊢
  after_results
  rw [h27, h33, h40, h41, h43, h3, h4, h5]
  rfl

/-- The run: the result buffer at the combine of the scatter-added per-cluster sums; the arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v71)
          = tail (m ((c.tc : Thread nD τ).loc main_arg0)) (m ((c.tc : Thread nD τ).loc main_arg1))
              (m ((c.tc : Thread nD τ).loc main_arg3))
              (seg (m ((c.tc : Thread nD τ).loc main_arg2)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_v71).trans (read_v71 _), (h c main_arg0).trans (read_arg0 _), (h c main_arg1).trans (read_arg1 _),
      (h c main_arg2).trans (read_arg2 _), (h c main_arg3).trans (read_arg3 _), (h c main_arg4).trans (read_arg4 _),
      (h c main_arg5).trans (read_arg5 _)⟩)
    (run_seq scopedRefs_eq scopedSems_eq defs main (fun _ => ops) main_eq (fun _ => ops_sub) m ρ)

end Cert.ReferenceIdeal.RefValue

end
-- ==== Proof.PreDecode.lean ====
/-
  The precondition read: besides the finiteness of the float inputs it says that every node id is non-negative
  (the last conjunct: an all-reduce of the signed comparison `n_j ≥ 0`).
-/
import proofs.«428178_j65979287601801_3_alg».proof.Defs
import proofs.«428178_j65979287601801_3_alg».proof.Proof.Gen.Pre_finite_inputs
import proofs.«428178_j65979287601801_3_alg».proof.Proof.Gen.KernelIdeal
import Idealize.ShloMosaic.Lib.ReduceAll
import Idealize.ShloMosaic.Lib.StableHlo.Predicate
import Idealize.ShloMosaic.Lib.ValueIdx

noncomputable section

open Idealize.ShloMosaic Idealize.ShloMosaic.TcCoe Idealize.SL.Sem Idealize.ShloMosaic.ValueIdx

namespace Cert.Proof.Pre

/-- The tail of the predicate, read back: if its one word is 1, then its last conjunct — the conjunction over all
    positions of the signed comparison `a ≥ 0` — is 1, so every word of `a` is non-negative as a signed integer.
    The two earlier conjuncts `p` and `q` (the float ones) are not looked at. -/
theorem part1_nonneg {F : FTy → Type} [FloatOps F] (a : IVec Cert.Pre_finite_inputs.S4000000 32)
    (p : IVec Cert.Pre_finite_inputs.S_ 1) (q : IVec Cert.Pre_finite_inputs.S1 1)
    (h : Cert.Pre_finite_inputs.fn_part1 (F := F) a p q ix0 = 1#1) (j : Cert.Pre_finite_inputs.S4000000.Idx) :
    0 ≤ (a j).toInt := by
  -- the scalar shape has exactly one index
  haveI : Subsingleton Cert.Pre_finite_inputs.S_.Idx := ⟨fun a b => funext fun d => d.elim0⟩
  unfold Cert.Pre_finite_inputs.fn_part1 at h
  -- the outermost conjunction: keep its second half, the conjunction over all positions of the comparison
  have hall := (IntOp.andi_eq_one.1 h).2
  -- a conjunction over all positions that is 1 is 1 at each position
  have hj := Host.reduce_andi_all _ _ _ _ ix0 hall j
  -- at position j this is the signed comparison of `a j` with the broadcast zero
  have hc : IntOp.cmpi .sge (a j) 0#32 = 1#1 := hj
  have := IntOp.cmpi_sge.1 hc
  rwa [show (0#32 : BitVec 32).toInt = 0 from by decide] at this

/-- Under the precondition every node id (the sixth argument), read as a signed integer, is non-negative. -/
theorem nj_nonneg (m : (ℓ : Loc Cert.KernelIdeal.nD Cert.KernelIdeal.τ Cert.KernelIdeal.sig) → Buf (Elt Ideal) ℓ)
    (h : Cert.Pre_KernelIdeal m) (c : Dev Cert.KernelIdeal.nD) (j : Cert.KernelIdeal.S4000000.Idx) :
    0 ≤ ((m ((c.tc : Thread Cert.KernelIdeal.nD Cert.KernelIdeal.τ).loc Cert.KernelIdeal.main_arg5) : Cert.KernelIdeal.S4000000.Idx → BitVec 32) j).toInt := by
  have h0 := congrFun (h c) ix0
  -- the predicate is its first twenty-four operations (the float conjuncts) followed by its tail
  unfold Cert.Pre_finite_inputs.fn at h0
  exact part1_nonneg _ _ _ h0 j

end Cert.Proof.Pre

end
-- ==== Proof.Bridge.lean ====
/-
  The two programs' per-cluster sums are one function. The kernel's: cluster `128·hi + lo` is zero plus the two cores'
  table entries at (hi, lo); core `p`'s entry is what its last grid point left, the contributions of the padded
  entries `245·8192·p … 245·8192·(p+1) − 1`; together the contributions of all 4,014,080 padded entries, of which the
  last 14,080 carry the key 17408 = 128·136, no cluster's bucket: so the contributions of the 4,000,000 real entries,
  each `exp` of `gamma` at the entry's (clamped) node id where the entry's cluster id is the cluster. The
  reference's scatter-add is the same sum once its wrap of negative node ids is the identity, which the
  precondition (every node id non-negative) makes it.
-/
import proofs.«428178_j65979287601801_3_alg».proof.Proof.BodyValue
import proofs.«428178_j65979287601801_3_alg».proof.Proof.KRun
import proofs.«428178_j65979287601801_3_alg».proof.Proof.RefRun
import proofs.«428178_j65979287601801_3_alg».proof.Proof.PreDecode

noncomputable section

open Idealize.ShloMosaic Idealize.ShloMosaic.TcCoe Idealize.SL.Sem Idealize.ShloMosaic.ValueIdx
open Cert.HistSpec
open Cert.KernelIdeal.Hist (gp kp sOf arr2)

namespace Cert.Proof.Bridge

/-- The padding key is no bucket of a cluster below 16399. -/
theorem pad_key_ne (hi : Fin 136) (lo : Fin 128) (h : 128 * hi.val + lo.val < 16399) :
    (17408#32 : BitVec 32).toInt ≠ bucket hi lo := by
  have e : (17408#32 : BitVec 32).toInt = 17408 := by decide
  rw [e]; unfold bucket; omega

/-- The kernel's sum for cluster `128·hi + lo`: the contributions of the 4,000,000 real entries. -/
theorem sK_apply (m : (ℓ : Loc Cert.KernelIdeal.nD Cert.KernelIdeal.τ Cert.KernelIdeal.sig) → Buf (Elt Ideal) ℓ)
    (c : Dev Cert.KernelIdeal.nD) (hi : Fin 136) (lo : Fin 128) (h : 128 * hi.val + lo.val < 16399) :
    (sOf (F := Ideal) (arr2 m c) (ix1 ⟨128 * hi.val + lo.val, h⟩) : EReal)
      = stretch (gp m c) (kp m c) (bucket hi lo) 0 4000000 := by
  rw [Cert.KernelIdeal.Hist.sOf_apply _ hi lo h, Cert.KernelIdeal.Hist.arr2_apply m c 0 hi lo,
    Cert.KernelIdeal.Hist.arr2_apply m c 1 hi lo, Cert.KernelIdeal.Hist.outsAt_apply m c hi lo,
    Cert.KernelIdeal.Hist.outsAt_apply m c hi lo, Ideal.ofBits_zero_f32, zero_add]
  have s0 : ((0 : Fin 2).val * 245 + 244 - ((0 : Fin 2).val * 245 + 244) % 245) * 8192 = 0 := by decide
  have l0 : (((0 : Fin 2).val * 245 + 244) % 245 + 1) * 8192 = 2007040 := by decide
  have s1 : ((1 : Fin 2).val * 245 + 244 - ((1 : Fin 2).val * 245 + 244) % 245) * 8192 = 0 + 2007040 := by decide
  have l1 : (((1 : Fin 2).val * 245 + 244) % 245 + 1) * 8192 = 2007040 := by decide
  rw [s0, l0, s1, l1, ← stretch_add]
  have e : 2007040 + 2007040 = 4000000 + 14080 := by norm_num
  rw [e, stretch_add, stretch_eq_zero _ _ _ (0 + 4000000) 14080, add_zero]
  intro i hi'
  rw [Cert.KernelIdeal.Hist.kp_ge m c (0 + 4000000 + i) (by omega) (by omega)]
  exact pad_key_ne hi lo h

/-- The per-cluster sums the kernel program reads off its result array are the reference's scatter-added ones. -/
theorem s_eq (m : (ℓ : Loc Cert.KernelIdeal.nD Cert.KernelIdeal.τ Cert.KernelIdeal.sig) → Buf (Elt Ideal) ℓ)
    (hpre : Cert.Pre_KernelIdeal m) (c : Dev Cert.KernelIdeal.nD) :
    sOf (F := Ideal) (arr2 m c)
      = Cert.ReferenceIdeal.RefValue.seg (F := Ideal)
          (m ((c.tc : Thread Cert.KernelIdeal.nD Cert.KernelIdeal.τ).loc Cert.KernelIdeal.main_arg2))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  funext i
  obtain ⟨n, rfl⟩ : ∃ n : Fin 16399, i = ix1 n := ⟨i 0, eq_ix1 i⟩
  have hhi : n.val / 128 < 136 := by have := n.isLt; omega
  have hlo : n.val % 128 < 128 := Nat.mod_lt _ (by norm_num)
  have hn : 128 * (⟨n.val / 128, hhi⟩ : Fin 136).val + (⟨n.val % 128, hlo⟩ : Fin 128).val < 16399 := by
    show 128 * (n.val / 128) + n.val % 128 < 16399
    have := n.isLt; omega
  have en : n = ⟨128 * (⟨n.val / 128, hhi⟩ : Fin 136).val + (⟨n.val % 128, hlo⟩ : Fin 128).val, hn⟩ :=
    Fin.ext (by show n.val = 128 * (n.val / 128) + n.val % 128; omega)
  have hb : bucket ⟨n.val / 128, hhi⟩ ⟨n.val % 128, hlo⟩ = (n.val : ℤ) := by
    unfold bucket
    show 128 * ((n.val / 128 : ℕ) : ℤ) + ((n.val % 128 : ℕ) : ℤ) = (n.val : ℤ)
    omega
  rw [Cert.ReferenceIdeal.RefValue.seg_apply _ _ _ (fun j => Cert.Proof.Pre.nj_nonneg m hpre c j) n]
  conv_lhs => rw [en]
  rw [sK_apply m c _ _ hn, stretch_eq_sum_fin]
  refine Finset.sum_congr rfl fun j _ => ?_
  unfold term
  rw [Cert.KernelIdeal.Hist.kp_lt m c j.val j.isLt, Cert.KernelIdeal.Hist.gp_lt m c j.val j.isLt, hb]
  rfl

end Cert.Proof.Bridge

end
-- ==== Proof.lean ====
/-
  The claim. The kernel program computes, per cluster, the sum of `exp(gamma)` at the node ids of the entries assigned
  to the cluster by a histogram on the matrix unit (two one-hot factors per chunk of entries, the key split as
  `128·hi + lo`), the reference by a scatter-add; everything else of the two programs — the pair distances'
  exponentials, the row and column tables, the closing combine `exp(bias) · Σ vals · s[rows] · s[cols]` — is the same
  function of the centroids, the bias and the per-cluster sums. The per-cluster sums agree where every node id is
  non-negative (a negative one the reference wraps and the kernel program clamps), which the precondition states;
  finiteness of the float inputs is not used. The idealization rewrote nothing.
-/
import proofs.«428178_j65979287601801_3_alg».proof.Defs
import proofs.«428178_j65979287601801_3_alg».proof.Proof.Gen.Kernel
import proofs.«428178_j65979287601801_3_alg».proof.Proof.Gen.Kernel.Frame
import proofs.«428178_j65979287601801_3_alg».proof.Proof.Gen.KernelIdeal
import proofs.«428178_j65979287601801_3_alg».proof.Proof.Gen.KernelIdeal.Frame
import proofs.«428178_j65979287601801_3_alg».proof.Proof.Gen.ReferenceIdeal
import proofs.«428178_j65979287601801_3_alg».proof.Proof.Gen.Pre_finite_inputs
import proofs.«428178_j65979287601801_3_alg».proof.Proof.Bridge
import Idealize.ShloMosaic.Adequacy
import Idealize.ShloMosaic.Init

noncomputable section

namespace Cert.Proof

open Idealize.ShloMosaic Idealize.SL.Sem

/-- The closing combine is written twice, once per program, in the same words. -/
theorem tail_eq (a0 : FVec Ideal Cert.KernelIdeal.S15x8 .f32) (a1 : FVec Ideal Cert.KernelIdeal.S16384x8 .f32)
    (a3 : FVec Ideal Cert.KernelIdeal.S1 .f32) (s : FVec Ideal Cert.KernelIdeal.S16399 .f32) :
    Cert.ReferenceIdeal.RefValue.tail (F := Ideal) a0 a1 a3 s = Cert.KernelIdeal.Hist.tail (F := Ideal) a0 a1 a3 s := rfl

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both programs end at the closing combine of the same per-cluster sums. -/
theorem algebraic : Cert.algebraic_KernelIdeal_ReferenceIdeal := by
  intro m ρ m' ρ' hpre hagree
  refine ⟨fun c => Cert.KernelIdeal.Hist.tail (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (Cert.KernelIdeal.Hist.sOf (Cert.KernelIdeal.Hist.arr2 m c)), Cert.KernelIdeal.Hist.run (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2,
    ← Cert.Proof.Bridge.s_eq m hpre c]
  exact tail_eq _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
